-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S2000000x1 : Shape := ⟨2, ![2000000, 1]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : IVec S2000000x1 32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  main_v3
-- ==== Kernel.lean ====
abbrev S2000000x16 : Shape := ⟨2, ![2000000, 16]⟩
abbrev S2000000x1 : Shape := ⟨2, ![2000000, 1]⟩
abbrev S2000000 : Shape := ⟨1, ![2000000]⟩
abbrev S_ : Shape := ⟨0, ![]⟩
abbrev S2031616x16 : Shape := ⟨2, ![2031616, 16]⟩
abbrev S2031616 : Shape := ⟨1, ![2031616]⟩
abbrev S1x2031616 : Shape := ⟨2, ![1, 2031616]⟩
abbrev S2x32x16 : Shape := ⟨3, ![2, 32, 16]⟩
abbrev S2x32x1 : Shape := ⟨3, ![2, 32, 1]⟩
abbrev S16384x16 : Shape := ⟨2, ![16384, 16]⟩
abbrev S1x16384 : Shape := ⟨2, ![1, 16384]⟩
abbrev S1x32x16 : Shape := ⟨3, ![1, 32, 16]⟩
abbrev S1x32x1 : Shape := ⟨3, ![1, 32, 1]⟩
abbrev S32x16 : Shape := ⟨2, ![32, 16]⟩
abbrev S32x1 : Shape := ⟨2, ![32, 1]⟩
abbrev S32x16384 : Shape := ⟨2, ![32, 16384]⟩
abbrev S32 : Shape := ⟨1, ![32]⟩
abbrev S1x16 : Shape := ⟨2, ![1, 16]⟩
abbrev S32x1x16 : Shape := ⟨3, ![32, 1, 16]⟩
abbrev S32x32x16 : Shape := ⟨3, ![32, 32, 16]⟩
abbrev S32x32 : Shape := ⟨2, ![32, 32]⟩

abbrev nBuf : Space → Nat
  | .hbm => 79
  | .vmem => 15
  | .smem => 0
  | _ => 0

abbrev bufTy : (tb : Table) → Fin (tcTables nBuf tb) → BufTy
  | .hbm, ⟨0, _⟩ => ⟨S2000000x16, .f32⟩
  | .hbm, ⟨1, _⟩ => ⟨S2000000x1, .i32⟩
  | .hbm, ⟨2, _⟩ => ⟨S2000000, .i32⟩
  | .hbm, ⟨3, _⟩ => ⟨S_, .i32⟩
  | .hbm, ⟨4, _⟩ => ⟨S_, .f32⟩
  | .hbm, ⟨5, _⟩ => ⟨S2031616x16, .f32⟩
  | .hbm, ⟨6, _⟩ => ⟨S_, .i32⟩
  | .hbm, ⟨7, _⟩ => ⟨S_, .i32⟩
  | .hbm, ⟨8, _⟩ => ⟨S2031616, .i32⟩
  | .hbm, ⟨9, _⟩ => ⟨S1x2031616, .i32⟩
  | .hbm, ⟨10, _⟩ => ⟨S2x32x16, .f32⟩
  | .hbm, ⟨11, _⟩ => ⟨S2x32x1, .f32⟩
  | .hbm, ⟨12, _⟩ => ⟨S_, .f32⟩
  | .hbm, ⟨13, _⟩ => ⟨S32x16, .f32⟩
  | .hbm, ⟨14, _⟩ => ⟨S_, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x16, .f32⟩
  | .hbm, ⟨20, _⟩ => ⟨S32x16, .f32⟩
  | .hbm, ⟨21, _⟩ => ⟨S2x32x1, .f32⟩
  | .hbm, ⟨22, _⟩ => ⟨S_, .f32⟩
  | .hbm, ⟨23, _⟩ => ⟨S32x1, .f32⟩
  | .hbm, ⟨24, _⟩ => ⟨S32x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x1x16, .f32⟩
  | .hbm, ⟨30, _⟩ => ⟨S1x32x16, .f32⟩
  | .hbm, ⟨31, _⟩ => ⟨S32x32x16, .f32⟩
  | .hbm, ⟨32, _⟩ => ⟨S32x32x16, .f32⟩
  | .hbm, ⟨33, _⟩ => ⟨S32x32x16, .f32⟩
  | .hbm, ⟨34, _⟩ => ⟨S32x32x16, .f32⟩
  | .hbm, ⟨35, _⟩ => ⟨S_, .f32⟩
  | .hbm, ⟨36, _⟩ => ⟨S32x32, .f32⟩
  | .hbm, ⟨37, _⟩ => ⟨S32x32, .i32⟩
  | .hbm, ⟨38, _⟩ => ⟨S32x32, .i32⟩
  | .hbm, ⟨39, _⟩ => ⟨S_, .i32⟩
  | .hbm, ⟨40, _⟩ => ⟨S32x32, .i32⟩
  | .hbm, ⟨41, _⟩ => ⟨S32x32, .i32⟩
  | .hbm, ⟨42, _⟩ => ⟨S32x32, .i1⟩
  | .hbm, ⟨43, _⟩ => ⟨S_, .f32⟩
  | .hbm, ⟨44, _⟩ => ⟨S_, .f32⟩
  | .hbm, ⟨45, _⟩ => ⟨S32x32, .f32⟩
  | .hbm, ⟨46, _⟩ => ⟨S32x32, .f32⟩
  | .hbm, ⟨47, _⟩ => ⟨S32x32, .f32⟩
  | .hbm, ⟨48, _⟩ => ⟨S_, .f32⟩
  | .hbm, ⟨49, _⟩ => ⟨S32x32, .f32⟩
  | .hbm, ⟨50, _⟩ => ⟨S32x32, .f32⟩
  | .hbm, ⟨51, _⟩ => ⟨S_, .f32⟩
  | .hbm, ⟨52, _⟩ => ⟨S32x32, .f32⟩
  | .hbm, ⟨53, _⟩ => ⟨S32x32, .f32⟩
  | .hbm, ⟨54, _⟩ => ⟨S_, .f32⟩
  | .hbm, ⟨55, _⟩ => ⟨S_, .f32⟩
  | .hbm, ⟨56, _⟩ => ⟨S32x32, .f32⟩
  | .hbm, ⟨57, _⟩ => ⟨S32x32, .f32⟩
  | .hbm, ⟨58, _⟩ => ⟨S32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32x16, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S16384x16, .f32⟩
  | .local _ .vmem, ⟨1, _⟩ => ⟨S16384x16, .f32⟩
  | .local _ .vmem, ⟨2, _⟩ => ⟨S1x16384, .i32⟩
  | .local _ .vmem, ⟨3, _⟩ => ⟨S1x16384, .i32⟩
  | .local _ .vmem, ⟨4, _⟩ => ⟨S1x32x16, .f32⟩
  | .local _ .vmem, ⟨5, _⟩ => ⟨S1x32x16, .f32⟩
  | .local _ .vmem, ⟨6, _⟩ => ⟨S1x32x1, .f32⟩
  | .local _ .vmem, ⟨7, _⟩ => ⟨S1x32x1, .f32⟩
  | .local _ .vmem, ⟨8, _⟩ => ⟨S16384x16, .f32⟩
  | .local _ .vmem, ⟨9, _⟩ => ⟨S16384x16, .f32⟩
  | .local _ .vmem, ⟨10, _⟩ => ⟨S1x16384, .i32⟩
  | .local _ .vmem, ⟨11, _⟩ => ⟨S1x16384, .i32⟩
  | .local _ .vmem, ⟨12, _⟩ => ⟨S32x16, .f32⟩
  | .local _ .vmem, ⟨13, _⟩ => ⟨S1x32x1, .f32⟩
  | .local _ .vmem, ⟨14, _⟩ => ⟨S1x32x1, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_v39 : Ref sig .tc := ⟨.hbm, 65, rfl⟩
abbrev main_v40 : Ref sig .tc := ⟨.hbm, 66, rfl⟩
abbrev main_cst_15 : Ref sig .tc := ⟨.hbm, 67, rfl⟩
abbrev main_v41 : Ref sig .tc := ⟨.hbm, 68, rfl⟩
abbrev main_cst_16 : Ref sig .tc := ⟨.hbm, 69, rfl⟩
abbrev main_v42 : Ref sig .tc := ⟨.hbm, 70, rfl⟩
abbrev main_cst_17 : Ref sig .tc := ⟨.hbm, 71, rfl⟩
abbrev main_v43 : Ref sig .tc := ⟨.hbm, 72, rfl⟩
abbrev main_cst_18 : Ref sig .tc := ⟨.hbm, 73, rfl⟩
abbrev main_v44 : Ref sig .tc := ⟨.hbm, 74, rfl⟩
abbrev main_v45 : Ref sig .tc := ⟨.hbm, 75, rfl⟩
abbrev main_cst_19 : Ref sig .tc := ⟨.hbm, 76, rfl⟩
abbrev main_v46 : Ref sig .tc := ⟨.hbm, 77, rfl⟩
abbrev main_v47 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 62], ![false, false]⟩

def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 62], ![false, false]⟩

def cc1_transform_0 (i : grid1.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16384x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S2000000x1_S2000000 : S2000000x1.ShapeCasts S2000000
  pads_S2000000x16_S2031616x16_0316160_000 : S2000000x16.Pads (![0, 0] : Fin 2 → Nat) ![31616, 0] ![0, 0] S2031616x16
  h_S_ : 0 < S_.numel
  pads_S2000000_S2031616_0316160 : S2000000.Pads (![0] : Fin 1 → Nat) ![31616] ![0] S2031616
  bcast_S2031616_S1x2031616_1 : S2031616.BroadcastsInDim S1x2031616 (![1] : Fin 1 → Fin S1x2031616.rank)
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  iota_S32x16384_d0_w32 : S32x16384.Iotas .tc 32 [0]
  broadcasts_S1x16384_S32x16384 : S1x16384.Broadcasts S32x16384
  natLt_1_32 : 1 < 32
  inb_S16384x16_S16384x16_0_0 : ∀ a, (![0, 0] : Fin 2 → Nat) a + S16384x16.size a ≤ S16384x16.size a
  h_S16384x16 : 0 < S16384x16.numel
  shapeCasts_S16384x16_S16384x16 : S16384x16.ShapeCasts S16384x16
  reduces_S32x16384_S32 : S32x16384.Reduces [1] S32
  shapeCasts_S32_S32x1 : S32.ShapeCasts S32x1
  reducesTo_S2x32x16_S32x16_d0 : S2x32x16.ReducesTo [0] S32x16
  reducesTo_S2x32x1_S32x1_d0 : S2x32x1.ReducesTo [0] S32x1
  bcast_S_S32x1 : S_.BroadcastsInDim S32x1 (![] : Fin 0 → Fin S32x1.rank)
  bcast_S32x1_S32x16_0_1 : S32x1.BroadcastsInDim S32x16 (![0, 1] : Fin 2 → Fin S32x16.rank)
  inb_S32x16_S32x16_0_0 : ∀ a, (![0, 0] : Fin 2 → Nat) a + S32x16.size a ≤ S32x16.size a
  h_S32x16 : 0 < S32x16.numel
  shapeCasts_S32x16_S32x16 : S32x16.ShapeCasts S32x16
  reduces_S32x16_S32 : S32x16.Reduces [1] S32
  broadcasts_S32x1_S32x16384 : S32x1.Broadcasts S32x16384
  reducesTo_S32x1_S_d0_1 : S32x1.ReducesTo [0, 1] S_
  bcast_S32x16_S32x1x16_0_2 : S32x16.BroadcastsInDim S32x1x16 (![0, 2] : Fin 2 → Fin S32x1x16.rank)
  bcast_S32x16_S1x32x16_1_2 : S32x16.BroadcastsInDim S1x32x16 (![1, 2] : Fin 2 → Fin S1x32x16.rank)
  bcast_S32x1x16_S32x32x16_0_1_2 : S32x1x16.BroadcastsInDim S32x32x16 (![0, 1, 2] : Fin 3 → Fin S32x32x16.rank)
  bcast_S1x32x16_S32x32x16_0_1_2 : S1x32x16.BroadcastsInDim S32x32x16 (![0, 1, 2] : Fin 3 → Fin S32x32x16.rank)
  reducesTo_S32x32x16_S32x32_d2 : S32x32x16.ReducesTo [2] S32x32
  bcast_S_S32x32 : S_.BroadcastsInDim S32x32 (![] : Fin 0 → Fin S32x32.rank)
  reducesTo_S32x32_S_d0_1 : S32x32.ReducesTo [0, 1] S_
  reducesTo_S32x16_S32_d1 : S32x16.ReducesTo [1] S32
  reducesTo_S32_S_d0 : S32.ReducesTo [0] S_
  dot_S32x16384_S16384x16_S32x16_1_0_0_1_n_n_wf : DotDims.WF S32x16384 S16384x16 S32x16 [1] [0] [0] [1] [] []
  dot_S32x16_S16384x16_S32x16384_1_1_0_0_n_n_wf : DotDims.WF S32x16 S16384x16 S32x16384 [1] [1] [0] [0] [] []
  dot_S1x16_S16384x16_S1x16384_1_1_0_0_n_n_wf : DotDims.WF S1x16 S16384x16 S1x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S2031616x16.size a
  hwx0_0 : ∀ i : grid0.Coords, EltTy.bits .f32 = 32 ∨ (Rect.block (s := S2031616x16) S16384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x2031616.size a
  hwx0_1 : ∀ i : grid0.Coords, EltTy.bits .i32 = 32 ∨ (Rect.block (s := S1x2031616) S1x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S2x32x16.size a
  hwx0_2 : ∀ i : grid0.Coords, EltTy.bits .f32 = 32 ∨ (Rect.block (s := S2x32x16) S1x32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S2x32x1.size a
  hwx0_3 : ∀ i : grid0.Coords, EltTy.bits .f32 = 32 ∨ (Rect.block (s := S2x32x1) S1x32x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x16.size a ≤ S2031616x16.size a
  hwx1_0 : ∀ i : grid1.Coords, EltTy.bits .f32 = 32 ∨ (Rect.block (s := S2031616x16) S16384x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16384.size a ≤ S1x2031616.size a
  hwx1_1 : ∀ i : grid1.Coords, EltTy.bits .i32 = 32 ∨ (Rect.block (s := S1x2031616) S1x16384.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x1.size a ≤ S2x32x1.size a
  hwx1_3 : ∀ i : grid1.Coords, EltTy.bits .f32 = 32 ∨ (Rect.block (s := S2x32x1) S1x32x1.size (cc1_transform_3 i) (hinb1_3 i)).WholeWords (EltTy.packing .f32)

variable [Facts₀]

def dot_S32x16384_S16384x16_S32x16_1_0_0_1_n_n : DotDims S32x16384 S16384x16 S32x16 where
  lhsContracting := [1]
  rhsContracting := [0]
  lhsNonContracting := [0]
  rhsNonContracting := [1]
  lhsBatch := []
  rhsBatch := []
  wf := dot_S32x16384_S16384x16_S32x16_1_0_0_1_n_n_wf
def dot_S32x16_S16384x16_S32x16384_1_1_0_0_n_n : DotDims S32x16 S16384x16 S32x16384 where
  lhsContracting := [1]
  rhsContracting := [1]
  lhsNonContracting := [0]
  rhsNonContracting := [0]
  lhsBatch := []
  rhsBatch := []
  wf := dot_S32x16_S16384x16_S32x16384_1_1_0_0_n_n_wf
def dot_S1x16_S16384x16_S1x16384_1_1_0_0_n_n : DotDims S1x16 S16384x16 S1x16384 where
  lhsContracting := [1]
  rhsContracting := [1]
  lhsNonContracting := [0]
  rhsNonContracting := [0]
  lhsBatch := []
  rhsBatch := []
  wf := dot_S1x16_S16384x16_S1x16384_1_1_0_0_n_n_wf

abbrev win0_0 : Pipeline.Window sig grid0 :=
  Pipeline.Window.ofSpec (Memref.whole main_v1) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x32x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S16384x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x32x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2000000x16 : Shape := ⟨2, ![2000000, 16]⟩
abbrev S2000000x1 : Shape := ⟨2, ![2000000, 1]⟩
abbrev S2000000 : Shape := ⟨1, ![2000000]⟩
abbrev S_ : Shape := ⟨0, ![]⟩
abbrev S32 : Shape := ⟨1, ![32]⟩
abbrev S32x16 : Shape := ⟨2, ![32, 16]⟩
abbrev S32x1 : Shape := ⟨2, ![32, 1]⟩
abbrev S32x1x16 : Shape := ⟨3, ![32, 1, 16]⟩
abbrev S1x32x16 : Shape := ⟨3, ![1, 32, 16]⟩
abbrev S32x32x16 : Shape := ⟨3, ![32, 32, 16]⟩
abbrev S32x32 : Shape := ⟨2, ![32, 32]⟩

abbrev nBuf : Space → Nat
  | .hbm => 101
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x1, .i32⟩
  | .hbm, ⟨2, _⟩ => ⟨S2000000, .i32⟩
  | .hbm, ⟨3, _⟩ => ⟨S2000000x1, .f32⟩
  | .hbm, ⟨4, _⟩ => ⟨S2000000, .f32⟩
  | .hbm, ⟨5, _⟩ => ⟨S_, .f32⟩
  | .hbm, ⟨6, _⟩ => ⟨S2000000, .f32⟩
  | .hbm, ⟨7, _⟩ => ⟨S_, .f32⟩
  | .hbm, ⟨8, _⟩ => ⟨S32, .f32⟩
  | .hbm, ⟨9, _⟩ => ⟨S2000000x1, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32x16, .f32⟩
  | .hbm, ⟨16, _⟩ => ⟨S2000000x1, .i32⟩
  | .hbm, ⟨17, _⟩ => ⟨S32x16, .f32⟩
  | .hbm, ⟨18, _⟩ => ⟨S32x1, .f32⟩
  | .hbm, ⟨19, _⟩ => ⟨S32x16, .f32⟩
  | .hbm, ⟨20, _⟩ => ⟨S32x16, .f32⟩
  | .hbm, ⟨21, _⟩ => ⟨S_, .i32⟩
  | .hbm, ⟨22, _⟩ => ⟨S2000000, .i32⟩
  | .hbm, ⟨23, _⟩ => ⟨S2000000, .i1⟩
  | .hbm, ⟨24, _⟩ => ⟨S_, .i32⟩
  | .hbm, ⟨25, _⟩ => ⟨S2000000, .i32⟩
  | .hbm, ⟨26, _⟩ => ⟨S2000000, .i32⟩
  | .hbm, ⟨27, _⟩ => ⟨S2000000, .i32⟩
  | .hbm, ⟨28, _⟩ => ⟨S2000000x1, .i32⟩
  | .hbm, ⟨29, _⟩ => ⟨S2000000x16, .f32⟩
  | .hbm, ⟨30, _⟩ => ⟨S2000000x16, .f32⟩
  | .hbm, ⟨31, _⟩ => ⟨S2000000x16, .f32⟩
  | .hbm, ⟨32, _⟩ => ⟨S_, .f32⟩
  | .hbm, ⟨33, _⟩ => ⟨S2000000, .f32⟩
  | .hbm, ⟨34, _⟩ => ⟨S2000000, .f32⟩
  | .hbm, ⟨35, _⟩ => ⟨S_, .f32⟩
  | .hbm, ⟨36, _⟩ => ⟨S2000000, .f32⟩
  | .hbm, ⟨37, _⟩ => ⟨S2000000, .f32⟩
  | .hbm, ⟨38, _⟩ => ⟨S_, .f32⟩
  | .hbm, ⟨39, _⟩ => ⟨S2000000, .f32⟩
  | .hbm, ⟨40, _⟩ => ⟨S2000000, .f32⟩
  | .hbm, ⟨41, _⟩ => ⟨S2000000, .f32⟩
  | .hbm, ⟨42, _⟩ => ⟨S_, .f32⟩
  | .hbm, ⟨43, _⟩ => ⟨S32, .f32⟩
  | .hbm, ⟨44, _⟩ => ⟨S2000000x1, .i32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S32x1x16, .f32⟩
  | .hbm, ⟨52, _⟩ => ⟨S1x32x16, .f32⟩
  | .hbm, ⟨53, _⟩ => ⟨S32x32x16, .f32⟩
  | .hbm, ⟨54, _⟩ => ⟨S32x32x16, .f32⟩
  | .hbm, ⟨55, _⟩ => ⟨S32x32x16, .f32⟩
  | .hbm, ⟨56, _⟩ => ⟨S32x32x16, .f32⟩
  | .hbm, ⟨57, _⟩ => ⟨S_, .f32⟩
  | .hbm, ⟨58, _⟩ => ⟨S32x32, .f32⟩
  | .hbm, ⟨59, _⟩ => ⟨S32x32, .i32⟩
  | .hbm, ⟨60, _⟩ => ⟨S32x32, .i32⟩
  | .hbm, ⟨61, _⟩ => ⟨S_, .i32⟩
  | .hbm, ⟨62, _⟩ => ⟨S32x32, .i32⟩
  | .hbm, ⟨63, _⟩ => ⟨S32x32, .i32⟩
  | .hbm, ⟨64, _⟩ => ⟨S32x32, .i1⟩
  | .hbm, ⟨65, _⟩ => ⟨S_, .f32⟩
  | .hbm, ⟨66, _⟩ => ⟨S_, .f32⟩
  | .hbm, ⟨67, _⟩ => ⟨S32x32, .f32⟩
  | .hbm, ⟨68, _⟩ => ⟨S32x32, .f32⟩
  | .hbm, ⟨69, _⟩ => ⟨S32x32, .f32⟩
  | .hbm, ⟨70, _⟩ => ⟨S_, .f32⟩
  | .hbm, ⟨71, _⟩ => ⟨S32x32, .f32⟩
  | .hbm, ⟨72, _⟩ => ⟨S32x32, .f32⟩
  | .hbm, ⟨73, _⟩ => ⟨S_, .f32⟩
  | .hbm, ⟨74, _⟩ => ⟨S32x32, .f32⟩
  | .hbm, ⟨75, _⟩ => ⟨S32x32, .f32⟩
  | .hbm, ⟨76, _⟩ => ⟨S_, .f32⟩
  | .hbm, ⟨77, _⟩ => ⟨S_, .f32⟩
  | .hbm, ⟨78, _⟩ => ⟨S32x32, .f32⟩
  | .hbm, ⟨79, _⟩ => ⟨S32x32, .f32⟩
  | .hbm, ⟨80, _⟩ => ⟨S32x32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32x16, .f32⟩
  | .hbm, ⟨86, _⟩ => ⟨S_, .f32⟩
  | .hbm, ⟨87, _⟩ => ⟨S32, .f32⟩
  | .hbm, ⟨88, _⟩ => ⟨S32, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_call0_v0 : Ref sig .tc := ⟨.hbm, 66, rfl⟩
abbrev main_call0_v1 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_v60 : Ref sig .tc := ⟨.hbm, 87, rfl⟩
abbrev main_v61 : Ref sig .tc := ⟨.hbm, 88, rfl⟩
abbrev main_cst_19 : Ref sig .tc := ⟨.hbm, 89, rfl⟩
abbrev main_v62 : Ref sig .tc := ⟨.hbm, 90, rfl⟩
abbrev main_cst_20 : Ref sig .tc := ⟨.hbm, 91, rfl⟩
abbrev main_v63 : Ref sig .tc := ⟨.hbm, 92, rfl⟩
abbrev main_cst_21 : Ref sig .tc := ⟨.hbm, 93, rfl⟩
abbrev main_v64 : Ref sig .tc := ⟨.hbm, 94, rfl⟩
abbrev main_cst_22 : Ref sig .tc := ⟨.hbm, 95, rfl⟩
abbrev main_v65 : Ref sig .tc := ⟨.hbm, 96, rfl⟩
abbrev main_v66 : Ref sig .tc := ⟨.hbm, 97, rfl⟩
abbrev main_cst_23 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  shapeCasts_S2000000x1_S2000000 : S2000000x1.ShapeCasts S2000000
  slices_S2000000x16_S2000000x1_0_0 : S2000000x16.Slices ![0, 0] S2000000x1
  bcast_S_S2000000 : S_.BroadcastsInDim S2000000 (![] : Fin 0 → Fin S2000000.rank)
  bcast_S_S32 : S_.BroadcastsInDim S32 (![] : Fin 0 → Fin S32.rank)
  bcast_S2000000_S2000000x1_0 : S2000000.BroadcastsInDim S2000000x1 (![0] : Fin 1 → Fin S2000000x1.rank)
  bcast_S_S32x16 : S_.BroadcastsInDim S32x16 (![] : Fin 0 → Fin S32x16.rank)
  bcast_S32_S32x1_0 : S32.BroadcastsInDim S32x1 (![0] : Fin 1 → Fin S32x1.rank)
  bcast_S32x1_S32x16_0_1 : S32x1.BroadcastsInDim S32x16 (![0, 1] : Fin 2 → Fin S32x16.rank)
  reducesTo_S2000000x16_S2000000_d1 : S2000000x16.ReducesTo [1] S2000000
  h_S_ : 0 < S_.numel
  reducesTo_S32_S_d0 : S32.ReducesTo [0] S_
  bcast_S32x16_S32x1x16_0_2 : S32x16.BroadcastsInDim S32x1x16 (![0, 2] : Fin 2 → Fin S32x1x16.rank)
  bcast_S32x16_S1x32x16_1_2 : S32x16.BroadcastsInDim S1x32x16 (![1, 2] : Fin 2 → Fin S1x32x16.rank)
  bcast_S32x1x16_S32x32x16_0_1_2 : S32x1x16.BroadcastsInDim S32x32x16 (![0, 1, 2] : Fin 3 → Fin S32x32x16.rank)
  bcast_S1x32x16_S32x32x16_0_1_2 : S1x32x16.BroadcastsInDim S32x32x16 (![0, 1, 2] : Fin 3 → Fin S32x32x16.rank)
  reducesTo_S32x32x16_S32x32_d2 : S32x32x16.ReducesTo [2] S32x32
  bcast_S_S32x32 : S_.BroadcastsInDim S32x32 (![] : Fin 0 → Fin S32x32.rank)
  reducesTo_S32x32_S_d0_1 : S32x32.ReducesTo [0, 1] S_
  reducesTo_S32x16_S32_d1 : S32x16.ReducesTo [1] S32
  scatter_S32_S2000000x1_S2000000_n_0_0_1_wf : ScatterDims.WF S32 S2000000x1 S2000000 [] [0] [0] 1
  scatter_S32x16_S2000000x1_S2000000x16_1_0_0_1_wf : ScatterDims.WF S32x16 S2000000x1 S2000000x16 [1] [0] [0] 1
  gather_S32x16_S2000000x1_S2000000x16_1_0_n_n_0_1_116_wf : GatherDims.WF S32x16 S2000000x1 S2000000x16 [1] [0] [] [0] [] 1 ![1, 16]

variable [Facts₀]

def scatter_S32_S2000000x1_S2000000_n_0_0_1 : ScatterDims S32 S2000000x1 S2000000 where
  updateWindowDims := []
  insertedWindowDims := [0]
  scatterDimsToOperandDims := [0]
  indexVectorDim := 1
  wf := scatter_S32_S2000000x1_S2000000_n_0_0_1_wf
def scatter_S32x16_S2000000x1_S2000000x16_1_0_0_1 : ScatterDims S32x16 S2000000x1 S2000000x16 where
  updateWindowDims := [1]
  insertedWindowDims := [0]
  scatterDimsToOperandDims := [0]
  indexVectorDim := 1
  wf := scatter_S32x16_S2000000x1_S2000000x16_1_0_0_1_wf
def gather_S32x16_S2000000x1_S2000000x16_1_0_n_n_0_1_116 : GatherDims S32x16 S2000000x1 S2000000x16 where
  offsetDims := [1]
  collapsedSliceDims := [0]
  operandBatchingDims := []
  startIndicesBatchingDims := []
  startIndexMap := [0]
  indexVectorDim := 1
  sliceSizes := ![1, 16]
  wf := gather_S32x16_S2000000x1_S2000000x16_1_0_n_n_0_1_116_wf

class Facts : Prop extends Facts₀ where

variable [Facts]
-- ==== Proof.Spec.lean ====
/-
  The discriminative loss, as mathematics over the extended reals.

  A point is a row of 16 numbers with a label word; cluster k (0 ≤ k < 32) owns the points whose label word is k,
  and a label outside that range belongs to no cluster.  The loss is a fixed function (the "tail") of two things:
  the cluster means  mean k d = (Σ over the points of k of x n d) / max (count k) 1,  and the variance term
  (Σ_k (Σ over the points n of k of hinge ‖x n − mean k‖²) / max (count k) 1) / 32,  with
  hinge v = (max (√v − 1) 0)².

  One program reads the 2,000,000 rows directly.  The other pads them to 2,031,616 = 2 · 62 · 16384 rows (zero rows,
  label word −1, which names no cluster), walks them in two halves of 62 blocks of 16384 rows, weighs row n for
  cluster k by  oh k (label n) ∈ {0, 1},  and computes the squared distance as ‖x‖² − 2 x·μ + ‖μ‖² cut at zero.
  This module states both forms; SpecLaws proves them equal where the entries are real numbers.
-/
import Idealize.ShloMosaic.PureOps.Ideal
import Idealize.ShloMosaic.PureOps.Ideal.Laws
import Idealize.ShloMosaic.Lib.ValueIdx

noncomputable section

namespace Cert.Spec

open Idealize.ShloMosaic

/-! ## The float literals that are evaluated (all others meet themselves on the other side) -/

/-- The pattern of `1.0` denotes the real 1. -/
theorem one_f32 : Ideal.ofBits .f32 0x3F800000#32 = 1 := by
  simp [Ideal.ofBits, Ideal.ieee, -EReal.coe_mul]; norm_num

/-- The pattern of `2.0` denotes the real 2. -/
theorem two_f32 : Ideal.ofBits .f32 0x40000000#32 = 2 := by
  simp [Ideal.ofBits, Ideal.ieee, -EReal.coe_mul]; norm_num; norm_cast

/-! ## Sizes and indices -/

/-- The number of points. -/
abbrev NR : Nat := 2000000
/-- The number of rows after padding: 2 halves of 62 blocks of 16384 rows. -/
abbrev NP : Nat := 2031616

/-- Row `16384 · (62 c + i) + j`: lane `j` of block `i` of half `c`. -/
def rowOf (c : Fin 2) (i : Fin 62) (j : Fin 16384) : Fin NP :=
  ⟨(62 * c.val + i.val) * 16384 + j.val, by
    have := c.isLt; have := i.isLt; have := j.isLt; show _ < 2031616; omega⟩

/-- The weight of a point with label word `l` in cluster `k`: one when the word is `k`, else zero. -/
def oh (k : Fin 32) (l : BitVec 32) : EReal := if l = BitVec.ofNat 32 k.val then 1 else 0

/-- The points padded with zero rows. -/
def padX (x : Fin NR → Fin 16 → EReal) (n : Fin NP) (d : Fin 16) : EReal :=
  if h : n.val < NR then x ⟨n.val, h⟩ d else 0

/-- The labels padded with the word −1, which names no cluster. -/
def padL (l : Fin NR → BitVec 32) (n : Fin NP) : BitVec 32 :=
  if h : n.val < NR then l ⟨n.val, h⟩ else 4294967295#32

/-! ## The two forms of the squared distance, and the hinge -/

/-- ‖x − μ‖², coordinate by coordinate. -/
def sqd (x mu : Fin 16 → EReal) : EReal := ∑ d, (x d - mu d) * (x d - mu d)

/-- ‖x‖² − 2 x·μ + ‖μ‖², cut at zero. -/
def sqdK (x mu : Fin 16 → EReal) : EReal :=
  max (((∑ d, x d * x d) - 2 * ∑ d, mu d * x d) + ∑ d, mu d * mu d) 0

/-- (max (√v − 1) 0)². -/
def hinge (v : EReal) : EReal := max (Ideal.sqrt v - 1) 0 * max (Ideal.sqrt v - 1) 0

/-! ## What one half of the padded rows accumulates -/

/-- Σ over half `c` of  oh k (label) · x d. -/
def halfSum (xp : Fin NP → Fin 16 → EReal) (lp : Fin NP → BitVec 32) (c : Fin 2) (k : Fin 32) (d : Fin 16) : EReal :=
  ∑ i : Fin 62, ∑ j : Fin 16384, oh k (lp (rowOf c i j)) * xp (rowOf c i j) d

/-- Σ over half `c` of  oh k (label). -/
def halfCnt (lp : Fin NP → BitVec 32) (c : Fin 2) (k : Fin 32) : EReal :=
  ∑ i : Fin 62, ∑ j : Fin 16384, oh k (lp (rowOf c i j))

/-- Σ over half `c` of  hinge (‖x‖² − 2 x·μ_k + ‖μ_k‖²)⁺ · oh k (label). -/
def halfHinge (xp : Fin NP → Fin 16 → EReal) (lp : Fin NP → BitVec 32) (mu : Fin 32 → Fin 16 → EReal)
    (c : Fin 2) (k : Fin 32) : EReal :=
  ∑ i : Fin 62, ∑ j : Fin 16384, hinge (sqdK (xp (rowOf c i j)) (mu k)) * oh k (lp (rowOf c i j))

/-! ## The same over the points themselves -/

/-- The number of points of cluster `k`. -/
def cnt (l : Fin NR → BitVec 32) (k : Fin 32) : EReal := ∑ n, oh k (l n)

/-- Σ over the points of cluster `k` of coordinate `d`. -/
def sm (x : Fin NR → Fin 16 → EReal) (l : Fin NR → BitVec 32) (k : Fin 32) (d : Fin 16) : EReal :=
  ∑ n, oh k (l n) * x n d

/-- Σ over the points of cluster `k` of the hinge of their squared distance to μ_k. -/
def hs (x : Fin NR → Fin 16 → EReal) (l : Fin NR → BitVec 32) (mu : Fin 32 → Fin 16 → EReal) (k : Fin 32) : EReal :=
  ∑ n, oh k (l n) * hinge (sqd (x n) (mu k))

/-- The cluster mean: the sum over max (count) 1. -/
def mean (x : Fin NR → Fin 16 → EReal) (l : Fin NR → BitVec 32) (k : Fin 32) (d : Fin 16) : EReal :=
  Ideal.div (sm x l k d) (max (cnt l k) 1)

/-! ## The two quantities the rest of the loss is a function of, as arrays -/

open ValueIdx

/-- The shape of the points, of the labels, of the cluster means, and of a scalar. -/
abbrev SX : Shape := ⟨2, ![2000000, 16]⟩
abbrev SY : Shape := ⟨2, ![2000000, 1]⟩
abbrev SM : Shape := ⟨2, ![32, 16]⟩
abbrev S0 : Shape := ⟨0, ![]⟩

/-- The points, row by row. -/
def rows (x : SX.Idx → EReal) : Fin NR → Fin 16 → EReal := fun n d => x (ix2 n d)

/-- The label words, row by row. -/
def labs (y : SY.Idx → BitVec 32) : Fin NR → BitVec 32 := fun n => y (ix2 n 0)

/-- The cluster means as a 32 × 16 array. -/
def meanArr (x : SX.Idx → EReal) (y : SY.Idx → BitVec 32) : SM.Idx → EReal :=
  fun i => mean (rows x) (labs y) (i 0) (i 1)

/-- The variance term: the clusters' hinge sums over max (count) 1, summed, over 32 (the literal `32.0` is left as its
    pattern: it meets itself). -/
def varLoss (x : SX.Idx → EReal) (y : SY.Idx → BitVec 32) : S0.Idx → EReal := fun _ =>
  Ideal.div (∑ k : Fin 32, Ideal.div (hs (rows x) (labs y) (mean (rows x) (labs y)) k) (max (cnt (labs y) k) 1))
    (Ideal.ofBits .f32 0x42000000#32)

end Cert.Spec

end
-- ==== Proof.KDefs.lean ====
/-
  The arrays the two accumulating passes read, as plain functions of a row number: the padded points (2,031,616 rows of
  16 numbers), the padded label words (one row of 2,031,616 words), and for the second pass the cluster means (32 × 16).
-/
import proofs.«424489_j35948876268437_3_alg».proof.Proof.Gen.KernelIdeal.Frame
import proofs.«424489_j35948876268437_3_alg».proof.Proof.Spec
import Idealize.ShloMosaic.Lib.ValueIdx

set_option maxRecDepth 16384

noncomputable section

namespace Cert.KernelIdeal.KDefs

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

/-- The padded points as a pass finds them: row `n`, coordinate `d`. -/
def xp (c : Dev nD) : Fin Cert.Spec.NP → Fin 16 → EReal := fun n d => (V c main_v1 : S2031616x16.Idx → EReal) (ix2 n d)

/-- The padded label words as a pass finds them. -/
def lp (c : Dev nD) : Fin Cert.Spec.NP → BitVec 32 := fun n => (V c main_v3 : S1x2031616.Idx → BitVec 32) (ix2 0 n)

/-- The cluster means as the second pass finds them. -/
def mu (c : Dev nD) : Fin 32 → Fin 16 → EReal := fun k d => (V c main_v10 : S32x16.Idx → EReal) (ix2 k d)

end Cert.KernelIdeal.KDefs

end
-- ==== Proof.KHost.lean ====
/-
  The kernel program's host operations around its two accumulating passes, read at an index.  Before the first pass the
  points are padded with 31616 zero rows and the label words (one column) are flattened, padded with 31616 words −1 and
  laid out as one row.  Between the passes the two halves' sums and counts are added, the counts clamped below by 1, and
  the sums divided by them: the cluster means.  Neither pass writes the arrays it only reads, and no host operation
  between them writes the padded points or labels: the second pass finds them as the first did.
-/
import proofs.«424489_j35948876268437_3_alg».proof.Proof.KDefs
import Idealize.ShloMosaic.Lib.StableHlo.Run
import Idealize.ShloMosaic.Lib.Pipeline.Value
import Idealize.ShloMosaic.Lib.KernelVsHost
import Idealize.ShloMosaic.PureOps.Ideal.Laws

set_option maxRecDepth 16384

noncomputable section

namespace Cert.KernelIdeal.KHost

open Cert.KernelIdeal Cert.KernelIdeal.Gen Cert.KernelIdeal.KDefs
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Half `cc`'s entry (k, d) of the first pass's sums, (k) of its counts, and (k) of the second pass's hinge sums, as the
    run's boundaries hold them; and the clamped count of cluster k. -/
def halfSums (c : Dev nD) (cc : Fin 2) (k : Fin 32) (d : Fin 16) : EReal :=
  (W6 m ρ c (Proc.devRef .tc main_v4_0) : S2x32x16.Idx → EReal) (ix3 cc k d)
def halfCnts (c : Dev nD) (cc : Fin 2) (k : Fin 32) : EReal :=
  (W6 m ρ c (Proc.devRef .tc main_v4_1) : S2x32x1.Idx → EReal) (ix3 cc k 0)
def halfHinges (c : Dev nD) (cc : Fin 2) (k : Fin 32) : EReal :=
  (W8 m ρ c (Proc.devRef .tc main_v11) : S2x32x1.Idx → EReal) (ix3 cc k 0)
def safeCnt (c : Dev nD) (k : Fin 32) : EReal :=
  (V7 m ρ c main_v8 : S32x1.Idx → EReal) (ix2 k 0)

/-! ## Before the first pass: the two pads -/

/-- The padded points as the host operations before the first pass compute them from the points as launched. -/
theorem points_term (c : Dev nD) :
    (V5 m ρ c main_v1 : S2031616x16.Idx → EReal)
      = pad S2031616x16 ![0, 0] ![31616, 0] ![0, 0] (m ((c : Thread nD τ).loc main_arg0) : S2000000x16.Idx → EReal)
          (sitofp (F := Ideal) .f32 (constantI S_ 32 0#32)) pads_S2000000x16_S2031616x16_0316160_000 h_S_ := by
  show StableHlo.after hostOps0_4 (W4 m ρ c) (Proc.devRef .tc main_v1) = _
  after_results
  rfl

/-- The points' padding value: the word 0 read as a signed integer is the real 0. -/
theorem zero_word : (sitofp (F := Ideal) .f32 (constantI S_ 32 0#32) : S_.Idx → EReal) (Shape.Idx.first h_S_) = 0 := by
  show (((0#32 : BitVec 32).toInt : ℝ) : EReal) = 0
  rw [show (0#32 : BitVec 32).toInt = 0 from rfl, Int.cast_zero, EReal.coe_zero]

/-- The first pass finds the points padded with zero rows. -/
theorem xp_entry (c : Dev nD) :
    xp (V5 m ρ) c = Cert.Spec.padX (Cert.Spec.rows (m ((c : Thread nD τ).loc main_arg0))) := by
  funext n d
  show (V5 m ρ c main_v1 : S2031616x16.Idx → EReal) (ix2 n d) = _
  rw [points_term m ρ c]
  unfold Cert.Spec.padX Cert.Spec.rows
  by_cases h : n.val < Cert.Spec.NR
  · rw [dif_pos h]
    exact pad_apply_of_inside _ _ _ _ _ pads_S2000000x16_S2031616x16_0316160_000 h_S_ (ix2 n d)
      (ix2 (⟨n.val, h⟩ : Fin 2000000) d)
      (fun a => match a with
        | ⟨0, _⟩ => by show n.val = 0 + n.val * (0 + 1); omega
        | ⟨1, _⟩ => by show d.val = 0 + d.val * (0 + 1); omega)
  · rw [dif_neg h]
    refine (pad_apply_of_not_inside _ _ _ _ _ pads_S2000000x16_S2031616x16_0316160_000 h_S_ (ix2 n d) (0 : Fin 2) ?_).trans
      zero_word
    intro hin
    have e : (n.val - 0) / (0 + 1) < 2000000 := hin.2.2
    have h' : ¬ n.val < 2000000 := h
    omega

/-- The padded label words as the host operations before the first pass compute them from the labels as launched:
    flattened, padded, laid out as one row. -/
theorem labels_term (c : Dev nD) :
    (V5 m ρ c main_v3 : S1x2031616.Idx → BitVec 32)
      = broadcastInDim S1x2031616 ![1] bcast_S2031616_S1x2031616_1
          (pad S2031616 ![0] ![31616] ![0]
            (shapeCast S2000000 (m ((c : Thread nD τ).loc main_arg1) : S2000000x1.Idx → BitVec 32)
              shapeCasts_S2000000x1_S2000000)
            (constantI S_ 32 4294967295#32) pads_S2000000_S2031616_0316160 h_S_) := by
  show StableHlo.after hostOps0_4 (W4 m ρ c) (Proc.devRef .tc main_v3) = _
  after_results
  rfl

/-- The first pass finds the label words padded with −1. -/
theorem lp_entry (c : Dev nD) :
    lp (V5 m ρ) c = Cert.Spec.padL (Cert.Spec.labs (m ((c : Thread nD τ).loc main_arg1))) := by
  funext n
  show (V5 m ρ c main_v3 : S1x2031616.Idx → BitVec 32) (ix2 0 n) = _
  rw [labels_term m ρ c]
  rw [broadcastInDim_apply _ bcast_S2031616_S1x2031616_1 _ (ix2 0 n) (ix1 n)
    (fun a => match a with
      | ⟨0, _⟩ => by show n.val = if (2031616 : Nat) = 1 then 0 else n.val; rw [if_neg (by decide)])]
  unfold Cert.Spec.padL Cert.Spec.labs
  by_cases h : n.val < Cert.Spec.NR
  · rw [dif_pos h]
    refine (pad_apply_of_inside _ _ _ _ _ pads_S2000000_S2031616_0316160 h_S_ (ix1 n)
      (ix1 (⟨n.val, h⟩ : Fin 2000000))
      (fun a => match a with
        | ⟨0, _⟩ => by show n.val = 0 + n.val * (0 + 1); omega)).trans ?_
    exact shapeCast_apply _ shapeCasts_S2000000x1_S2000000 (ix1 (⟨n.val, h⟩ : Fin 2000000))
      (ix2 (⟨n.val, h⟩ : Fin 2000000) 0)
      (by rewrite [Shape.rowMajor_val_two, Shape.rowMajor_val_one]; show n.val * 1 + 0 = n.val; omega)
  · rw [dif_neg h]
    refine (pad_apply_of_not_inside _ _ _ _ _ pads_S2000000_S2031616_0316160 h_S_ (ix1 n) (0 : Fin 1) ?_).trans rfl
    intro hin
    have e : (n.val - 0) / (0 + 1) < 2000000 := hin.2.2
    have h' : ¬ n.val < 2000000 := h
    omega

/-! ## Across the first pass and the host operations after it -/

/-- The first pass's two result arrays at its exit are what its write-backs leave. -/
theorem sums_exit (c : Dev nD) :
    W6 m ρ c (Proc.devRef .tc main_v4_0) = (dat0 (V5 m ρ) c).arrAt 2 cfg0.N :=
  W6_arr m ρ c 2

theorem cnts_exit (c : Dev nD) :
    W6 m ρ c (Proc.devRef .tc main_v4_1) = (dat0 (V5 m ρ) c).arrAt 3 cfg0.N :=
  W6_arr m ρ c 3

/-- Across the first pass the padded points and labels stay as it found them: it only reads them. -/
theorem points_exit0 (c : Dev nD) : W6 m ρ c (Proc.devRef .tc main_v1) = W5 m ρ c (Proc.devRef .tc main_v1) :=
  ((W6_arr m ρ c 0).trans ((dat0 (V5 m ρ) c).arrAt_in 0 rfl _)).trans (A_eq0 (V5 m ρ) c 0)

theorem labels_exit0 (c : Dev nD) : W6 m ρ c (Proc.devRef .tc main_v3) = W5 m ρ c (Proc.devRef .tc main_v3) :=
  ((W6_arr m ρ c 1).trans ((dat0 (V5 m ρ) c).arrAt_in 1 rfl _)).trans (A_eq0 (V5 m ρ) c 1)

/-- The host operations between the passes write neither the padded points nor the padded labels. -/
theorem points_between (c : Dev nD) : W7 m ρ c (Proc.devRef .tc main_v1) = W6 m ρ c (Proc.devRef .tc main_v1) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

theorem labels_between (c : Dev nD) : W7 m ρ c (Proc.devRef .tc main_v3) = W6 m ρ c (Proc.devRef .tc main_v3) :=
  StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The second pass finds the same padded points and labels. -/
theorem xp_second (c : Dev nD) : xp (V7 m ρ) c = xp (V5 m ρ) c := by
  have e : V7 m ρ c main_v1 = V5 m ρ c main_v1 := (points_between m ρ c).trans (points_exit0 m ρ c)
  unfold xp; rw [e]

theorem lp_second (c : Dev nD) : lp (V7 m ρ) c = lp (V5 m ρ) c := by
  have e : V7 m ρ c main_v3 = V5 m ρ c main_v3 := (labels_between m ρ c).trans (labels_exit0 m ρ c)
  unfold lp; rw [e]

/-! ## Between the passes: the halves added, the counts clamped, the means -/

/-- The two halves of a [2, 32, 1] array added over the leading axis from 0, read at row k. -/
theorem reduce_cnts_apply (y : S2x32x1.Idx → EReal) (k : Fin 32) :
    (Host.reduceAdd (F := Ideal) y (constant S_ .f32 0x00000000#32) reducesTo_S2x32x1_S32x1_d0 h_S_ : S32x1.Idx → EReal) (ix2 k 0)
      = ∑ cc : Fin 2, y (ix3 cc k 0) := by
  simp only [Host.reduceAdd, Ideal.hostReduceAdd_def]
  rw [Ideal.hostReduceAdd_single reducesTo_S2x32x1_S32x1_d0 (by decide)]
  have h0 : (constant (F := Ideal) S_ .f32 0x00000000#32) (Shape.Idx.first h_S_) = (0 : EReal) := Ideal.ofBits_zero_f32
  rw [h0, zero_add]
  refine Finset.sum_congr rfl fun cc _ => ?_
  exact congrArg y (funext fun a => Fin.ext (by match a with | ⟨0, _⟩ => rfl | ⟨1, _⟩ => rfl | ⟨2, _⟩ => rfl))

/-- The two halves of a [2, 32, 16] array added over the leading axis from 0, read at (k, d). -/
theorem reduce_sums_apply (y : S2x32x16.Idx → EReal) (k : Fin 32) (d : Fin 16) :
    (Host.reduceAdd (F := Ideal) y (constant S_ .f32 0x00000000#32) reducesTo_S2x32x16_S32x16_d0 h_S_ : S32x16.Idx → EReal) (ix2 k d)
      = ∑ cc : Fin 2, y (ix3 cc k d) := by
  simp only [Host.reduceAdd, Ideal.hostReduceAdd_def]
  rw [Ideal.hostReduceAdd_single reducesTo_S2x32x16_S32x16_d0 (by decide)]
  have h0 : (constant (F := Ideal) S_ .f32 0x00000000#32) (Shape.Idx.first h_S_) = (0 : EReal) := Ideal.ofBits_zero_f32
  rw [h0, zero_add]
  refine Finset.sum_congr rfl fun cc _ => ?_
  exact congrArg y (funext fun a => Fin.ext (by match a with | ⟨0, _⟩ => rfl | ⟨1, _⟩ => rfl | ⟨2, _⟩ => rfl))

/-- The clamp of a [32, 1] array below by the broadcast 1, read at row k. -/
theorem clamp_apply (y : S32x1.Idx → EReal) (k : Fin 32) :
    (maximumf (F := Ideal) y (broadcastInDim S32x1 ![] bcast_S_S32x1 (constant (F := Ideal) S_ .f32 0x3F800000#32)) : S32x1.Idx → EReal) (ix2 k 0)
      = max (y (ix2 k 0)) 1 := by
  show max (y (ix2 k 0)) (broadcastInDim S32x1 ![] bcast_S_S32x1 (constant (F := Ideal) S_ .f32 0x3F800000#32) (ix2 k 0)) = _
  rw [broadcastInDim_apply _ bcast_S_S32x1 (constant (F := Ideal) S_ .f32 0x3F800000#32) (ix2 k 0) ix0 (fun a => a.elim0)]
  exact congrArg (max _) Cert.Spec.one_f32

/-- The clamped counts as the host operations between the passes compute them from the first pass's counts. -/
theorem safe_term (c : Dev nD) :
    (V7 m ρ c main_v8 : S32x1.Idx → EReal)
      = maximumf (F := Ideal)
          (Host.reduceAdd (F := Ideal) (W6 m ρ c (Proc.devRef .tc main_v4_1) : S2x32x1.Idx → EReal)
            (constant S_ .f32 0x00000000#32) reducesTo_S2x32x1_S32x1_d0 h_S_)
          (broadcastInDim S32x1 ![] bcast_S_S32x1 (constant (F := Ideal) S_ .f32 0x3F800000#32)) := by
  show StableHlo.after hostOps1 (W6 m ρ c) (Proc.devRef .tc main_v8) = _
  after_results

/-- The clamped counts the second pass's host side holds: the two halves' counts added, at least 1. -/
theorem safe_second (c : Dev nD) (k : Fin 32) :
    safeCnt m ρ c k = max (∑ cc : Fin 2, halfCnts m ρ c cc k) 1 := by
  unfold safeCnt halfCnts
  rw [safe_term m ρ c, clamp_apply, reduce_cnts_apply]

/-- The means as the host operations between the passes compute them from the first pass's sums and counts. -/
theorem mu_term (c : Dev nD) :
    (V7 m ρ c main_v10 : S32x16.Idx → EReal)
      = Host.divf (F := Ideal)
          (Host.reduceAdd (F := Ideal) (W6 m ρ c (Proc.devRef .tc main_v4_0) : S2x32x16.Idx → EReal)
            (constant S_ .f32 0x00000000#32) reducesTo_S2x32x16_S32x16_d0 h_S_)
          (broadcastInDim S32x16 ![0, 1] bcast_S32x1_S32x16_0_1 (V7 m ρ c main_v8 : S32x1.Idx → EReal)) := by
  rw [safe_term m ρ c]
  show StableHlo.after hostOps1 (W6 m ρ c) (Proc.devRef .tc main_v10) = _
  after_results

/-- The means the second pass finds: the two halves' sums added, over the clamped counts. -/
theorem mu_second (c : Dev nD) (k : Fin 32) (d : Fin 16) :
    mu (V7 m ρ) c k d
      = Ideal.div (∑ cc : Fin 2, halfSums m ρ c cc k d) (max (∑ cc : Fin 2, halfCnts m ρ c cc k) 1) := by
  rw [← safe_second m ρ c k]
  unfold mu safeCnt halfSums
  rw [mu_term m ρ c]
  show Ideal.div (Host.reduceAdd (F := Ideal) (W6 m ρ c (Proc.devRef .tc main_v4_0) : S2x32x16.Idx → EReal)
        (constant S_ .f32 0x00000000#32) reducesTo_S2x32x16_S32x16_d0 h_S_ (ix2 k d))
      (broadcastInDim S32x16 ![0, 1] bcast_S32x1_S32x16_0_1 (V7 m ρ c main_v8 : S32x1.Idx → EReal) (ix2 k d)) = _
  rw [reduce_sums_apply,
    broadcastInDim_apply _ bcast_S32x1_S32x16_0_1 (V7 m ρ c main_v8 : S32x1.Idx → EReal) (ix2 k d) (ix2 k 0)
      (fun a => match a with
        | ⟨0, _⟩ => by show k.val = if (32 : Nat) = 1 then 0 else k.val; rw [if_neg (by decide)]
        | ⟨1, _⟩ => by show (0 : Nat) = if (1 : Nat) = 1 then 0 else d.val; rw [if_pos rfl])]

/-! ## Across the second pass -/

/-- The second pass's result array at its exit is what its write-backs leave; the means and the clamped counts are as
    it found them. -/
theorem hinge_exit (c : Dev nD) :
    W8 m ρ c (Proc.devRef .tc main_v11) = (dat1 (V7 m ρ) c).arrAt 3 cfg1.N :=
  W8_arr m ρ c 3

theorem means_exit (c : Dev nD) : W8 m ρ c (Proc.devRef .tc main_v10) = V7 m ρ c main_v10 :=
  ((W8_arr m ρ c 2).trans ((dat1 (V7 m ρ) c).arrAt_in 2 rfl _)).trans (A_eq1 (V7 m ρ) c 2)

theorem safe_exit (c : Dev nD) : W8 m ρ c (Proc.devRef .tc main_v8) = V7 m ρ c main_v8 :=
  W8_of_ne m ρ c main_v8 (by decide)

end Cert.KernelIdeal.KHost

end
-- ==== Proof.Tail.lean ====
/-
  The part of the loss that both programs compute by the same operations from the cluster means μ (32 × 16) and the
  variance term v (a scalar):

    v + (Σ_{i ≠ j} (max (3 − ‖μ_i − μ_j‖) 0)²) / 992 + 0.001 · (Σ_k ‖μ_k‖) / 32,

  the pairwise distances taken with the diagonal replaced by 1 under the root and by 0 after the hinge.  It is kept as
  ONE function of (μ, v), never opened: the two programs agree as soon as their μ and v agree.
-/
import proofs.«424489_j35948876268437_3_alg».proof.Proof.Gen.KernelIdeal

noncomputable section

namespace Cert.KernelIdeal.Tail

open Cert.KernelIdeal Cert.KernelIdeal.Gen Idealize.ShloMosaic

variable {F : FTy → Type} [FloatOps F]

/-- The mask of the diagonal of a 32 × 32 array: row number equal to column number. -/
def diag : IVec S32x32 1 :=
  cmpi .eq (addi (iotaInDim S32x32 32 0) (broadcastInDim S32x32 ![] bcast_S_S32x32 (constantI S_ 32 0#32))) (iotaInDim S32x32 32 1)

/-- ‖μ_i − μ_j‖² for every pair of clusters: the sum over the 16 coordinates of the squared differences. -/
def pairSq (mu : FVec F S32x16 .f32) : FVec F S32x32 .f32 :=
  Host.reduceAdd
    (mulf
      (subf (broadcastInDim S32x32x16 ![0, 1, 2] bcast_S32x1x16_S32x32x16_0_1_2 (broadcastInDim S32x1x16 ![0, 2] bcast_S32x16_S32x1x16_0_2 mu))
        (broadcastInDim S32x32x16 ![0, 1, 2] bcast_S1x32x16_S32x32x16_0_1_2 (broadcastInDim S1x32x16 ![1, 2] bcast_S32x16_S1x32x16_1_2 mu)))
      (subf (broadcastInDim S32x32x16 ![0, 1, 2] bcast_S32x1x16_S32x32x16_0_1_2 (broadcastInDim S32x1x16 ![0, 2] bcast_S32x16_S32x1x16_0_2 mu))
        (broadcastInDim S32x32x16 ![0, 1, 2] bcast_S1x32x16_S32x32x16_0_1_2 (broadcastInDim S1x32x16 ![1, 2] bcast_S32x16_S1x32x16_1_2 mu))))
    (constant S_ .f32 0x00000000#32) reducesTo_S32x32x16_S32x32_d2 h_S_

/-- max (3 − ‖μ_i − μ_j‖) 0 off the diagonal, 0 on it. -/
def pairHinge (mu : FVec F S32x16 .f32) : FVec F S32x32 .f32 :=
  select (diag) (broadcastInDim S32x32 ![] bcast_S_S32x32 (id (constant S_ .f32 0x00000000#32)))
    (maximumf
      (subf (broadcastInDim S32x32 ![] bcast_S_S32x32 (constant S_ .f32 0x40400000#32))
        (Host.sqrt (select (diag) (broadcastInDim S32x32 ![] bcast_S_S32x32 (id (constant S_ .f32 0x3F800000#32))) (pairSq mu))))
      (broadcastInDim S32x32 ![] bcast_S_S32x32 (constant S_ .f32 0x00000000#32)))

/-- (Σ over all pairs of the squared pair hinge) / 992. -/
def distLoss (mu : FVec F S32x16 .f32) : FVec F S_ .f32 :=
  Host.divf (Host.reduceAdd (mulf (pairHinge mu) (pairHinge mu)) (constant S_ .f32 0x00000000#32) reducesTo_S32x32_S_d0_1 h_S_)
    (constant S_ .f32 0x44780000#32)

/-- (Σ_k ‖μ_k‖) / 32. -/
def regLoss (mu : FVec F S32x16 .f32) : FVec F S_ .f32 :=
  Host.divf
    (Host.reduceAdd (Host.sqrt (Host.reduceAdd (mulf mu mu) (constant S_ .f32 0x00000000#32) reducesTo_S32x16_S32_d1 h_S_))
      (constant S_ .f32 0x00000000#32) reducesTo_S32_S_d0 h_S_)
    (constant S_ .f32 0x42000000#32)

/-- 1 · v + 1 · distLoss μ + 0.001 · regLoss μ. -/
def tail (mu : FVec F S32x16 .f32) (v : FVec F S_ .f32) : FVec F S_ .f32 :=
  addf (addf (mulf (constant S_ .f32 0x3F800000#32) v) (mulf (constant S_ .f32 0x3F800000#32) (distLoss mu)))
    (mulf (constant S_ .f32 0x3A83126F#32) (regLoss mu))

end Cert.KernelIdeal.Tail

end
-- ==== Proof.KTail.lean ====
/-
  The kernel program's last host operations: the second pass's two halves are added, divided by the clamped counts,
  summed over the 32 clusters and divided by 32 — the variance term — and the shared tail is applied to the means and
  to it.
-/
import proofs.«424489_j35948876268437_3_alg».proof.Proof.Gen.KernelIdeal.Frame
import proofs.«424489_j35948876268437_3_alg».proof.Proof.Tail
import Idealize.ShloMosaic.Lib.StableHlo.Run
import Idealize.ShloMosaic.Lib.ValueIdx
import Idealize.ShloMosaic.PureOps.Ideal.Laws

set_option maxRecDepth 16384

noncomputable section

namespace Cert.KernelIdeal.KTail

open Cert.KernelIdeal Cert.KernelIdeal.Gen Cert.KernelIdeal.Tail
open Idealize.ShloMosaic Idealize.ShloMosaic.TcCoe Idealize.SL.Sem Idealize.ShloMosaic.StableHlo Idealize.ShloMosaic.ValueIdx

variable {F : FTy → Type} [FloatOps F]

/-- The variance term from the second pass's 2 × 32 × 1 result `h` and the clamped counts `sc` (32 × 1). -/
def varK (h : FVec F S2x32x1 .f32) (sc : FVec F S32x1 .f32) : FVec F S_ .f32 :=
  Host.divf (Host.reduceAdd (Host.divf (Host.reduceAdd h (constant S_ .f32 0x00000000#32) reducesTo_S2x32x1_S32x1_d0 h_S_) sc)
      (constant S_ .f32 0x00000000#32) reducesTo_S32x1_S_d0_1 h_S_) (constant S_ .f32 0x42000000#32)

/-- At the ideal instance: (Σ_k (Σ over the two halves of h (·, k, 0)) / sc (k, 0)) / 32, the literal 32.0 left as its pattern. -/
theorem varK_apply (h : FVec Ideal S2x32x1 .f32) (sc : FVec Ideal S32x1 .f32) (i : S_.Idx) :
    varK (F := Ideal) h sc i
      = Ideal.div (∑ k : Fin 32, Ideal.div (∑ cc : Fin 2, h (ix3 cc k 0)) (sc (ix2 k 0))) (Ideal.ofBits .f32 0x42000000#32) := by
  unfold varK
  show Ideal.div (Host.reduceAdd (Host.divf (Host.reduceAdd h (constant S_ .f32 0x00000000#32) reducesTo_S2x32x1_S32x1_d0 h_S_) sc)
      (constant S_ .f32 0x00000000#32) reducesTo_S32x1_S_d0_1 h_S_ i) (Ideal.ofBits .f32 0x42000000#32) = _
  -- the sum over both axes of a 32 × 1 array from 0 is the sum over its first coordinate
  have houter : ∀ y : FVec Ideal S32x1 .f32,
      Host.reduceAdd y (constant S_ .f32 0x00000000#32) reducesTo_S32x1_S_d0_1 h_S_ i = ∑ k : Fin 32, y (ix2 k 0) := by
    intro y
    simp only [Host.reduceAdd, Ideal.hostReduceAdd_def]
    rw [Ideal.hostReduceAdd_total reducesTo_S32x1_S_d0_1 (fun b => b.elim0) y _ i, ValueIdx.constant_apply,
      Ideal.ofBits_zero_f32, zero_add, ValueIdx.sum_idx2]
    exact Finset.sum_congr rfl fun k _ => Fin.sum_univ_one _
  -- the sum over the first axis of a 2 × 32 × 1 array from 0, at (k, 0), is the sum of its two halves there
  have hinner : ∀ k : Fin 32,
      Host.reduceAdd h (constant S_ .f32 0x00000000#32) reducesTo_S2x32x1_S32x1_d0 h_S_ (ix2 k 0) = ∑ cc : Fin 2, h (ix3 cc k 0) := by
    intro k
    simp only [Host.reduceAdd, Ideal.hostReduceAdd_def]
    rw [Ideal.hostReduceAdd_single reducesTo_S2x32x1_S32x1_d0 (by decide), ValueIdx.constant_apply, Ideal.ofBits_zero_f32, zero_add]
    refine Finset.sum_congr rfl fun cc _ => ?_
    exact congrArg h (funext fun a => Fin.ext (by match a with | ⟨0, _⟩ => rfl | ⟨1, _⟩ => rfl | ⟨2, _⟩ => rfl))
  rw [houter]
  refine congrArg (Ideal.div · _) (Finset.sum_congr rfl fun k _ => ?_)
  show Ideal.div (Host.reduceAdd h (constant S_ .f32 0x00000000#32) reducesTo_S2x32x1_S32x1_d0 h_S_ (ix2 k 0)) (sc (ix2 k 0)) = _
  rw [hinner]

variable (m : (ℓ : Loc nD τ sig) → Buf (Elt F) ℓ) (ρ : Dev nD → PrngReg)

set_option maxHeartbeats 8000000 in
/-- The result buffer at the end of the run: the shared tail of the means and the variance term as the second pass's
    exit holds them. -/
theorem tail_read (c : Dev nD) : (W13 m ρ c (Proc.devRef .tc main_v47) : FVec F S_ .f32)
    = tail (W8 m ρ c (Proc.devRef .tc main_v10)) (varK (W8 m ρ c (Proc.devRef .tc main_v11)) (W8 m ρ c (Proc.devRef .tc main_v8))) := by
  -- the last boundary is the fifth stretch of host operations run from the fourth's exit; reading the 57 operations
  -- back from the result buffer composes them into one term over the second pass's exit
  show StableHlo.after hostOps2_4 (W12 m ρ c) (Proc.devRef .tc main_v47) = _
  after_results
  -- that term is the shared tail applied to the means and the variance term, operation for operation
  first
    | rfl
    | (unfold Cert.KernelIdeal.Tail.tail Cert.KernelIdeal.Tail.regLoss Cert.KernelIdeal.Tail.distLoss
        Cert.KernelIdeal.Tail.pairHinge Cert.KernelIdeal.Tail.pairSq Cert.KernelIdeal.Tail.diag varK; rfl)

end Cert.KernelIdeal.KTail

end
-- ==== Proof.KRegion0.lean ====
/-
  The first accumulating pass.  Its grid is 2 halves × 62 blocks; at block i of half c it adds, to the running 32 × 16
  array of half c (reset to zero at i = 0), the product of the one-hot weights of the block's 16384 labels with the
  block's 16384 × 16 points, and to the running 32 × 1 array the row sums of the weights.  So half c's arrays end at the
  sums over its 62 · 16384 rows.

  The argument, in order: what one run of the body leaves in the two running arrays, in each of its two cases (the
  first block of a half, where the arrays are reset first, and a later block); those contents read at an entry (the
  weight of a label word in a cluster, the product as a sum over the block's lanes, the lane sum); the blocks the body is
  given, read off the padded arrays; by induction on the block, the running arrays after block i of a half are the sums
  over blocks 0 … i of that half; the last block of each half is the one written back, into that half's part of the
  result array, and the two parts cover the array.
-/
import proofs.«424489_j35948876268437_3_alg».proof.Proof.KDefs
import Idealize.ShloMosaic.Lib.Pipeline.Value
import Idealize.ShloMosaic.PureOps.Ideal.Laws
import Idealize.ShloMosaic.Lib.ValueLayout
import Idealize.ShloMosaic.Lib.Tactic

set_option maxRecDepth 16384

noncomputable section

namespace Cert.KernelIdeal.Region0

open Cert.KernelIdeal Cert.KernelIdeal.Gen Cert.KernelIdeal.KDefs
open Idealize.ShloMosaic Idealize.ShloMosaic.TcCoe Idealize.SL.Sem Idealize.ShloMosaic.ValueIdx
open Idealize.ShloMosaic.Pipeline (Dat)

section Pieces
variable {F : FTy → Type} [FloatOps F]

/-- The origin of a rank-3 block, and of a rank-2 block. -/
theorem hz3 : (![0, 0, 0] : Fin 3 → Nat) = fun _ => 0 := funext fun a => by fin_cases a <;> rfl
theorem hz2 : (![0, 0] : Fin 2 → Nat) = fun _ => 0 := funext fun a => by fin_cases a <;> rfl

/-- At a later block of a half the pass leaves, in the running sums, the update of what it found there. -/
theorem out_B_2 (c : Dev nD) (i : grid0.Coords) (a2 : Memref sig .tc .vmem S16384x16 .f32) (h2 : a2.IsWhole) (a3 : Memref sig .tc .vmem S1x16384 .i32) (h3 : a3.IsWhole) (a4 : Memref sig .tc .vmem S1x32x16 .f32) (h4 : a4.IsWhole) (a5 : Memref sig .tc .vmem S1x32x1 .f32) (h5 : a5.IsWhole) (hc : ¬cond0_0 i)
    (x0 : Vec F S16384x16 .f32) (x1 : Vec F S1x16384 .i32) (xo2 : Vec F S1x32x16 .f32) (xo3 : Vec F S1x32x1 .f32) :
    out0_B_2 c i a2 h2 a3 h3 a4 h4 a5 h5 hc x0 x1 xo2 xo3 = k0_pay4 x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, View.ld_unit_zero (S := S16384x16) hz2,
    View.ld_unit_zero (S := S1x16384) hz2, View.ld_unit_zero (S := S1x32x16) hz3]

/-- At a later block of a half the pass leaves, in the running counts, the update of what it found there. -/
theorem out_B_3 (c : Dev nD) (i : grid0.Coords) (a2 : Memref sig .tc .vmem S16384x16 .f32) (h2 : a2.IsWhole) (a3 : Memref sig .tc .vmem S1x16384 .i32) (h3 : a3.IsWhole) (a4 : Memref sig .tc .vmem S1x32x16 .f32) (h4 : a4.IsWhole) (a5 : Memref sig .tc .vmem S1x32x1 .f32) (h5 : a5.IsWhole) (hc : ¬cond0_0 i)
    (x0 : Vec F S16384x16 .f32) (x1 : Vec F S1x16384 .i32) (xo2 : Vec F S1x32x16 .f32) (xo3 : Vec F S1x32x1 .f32) :
    out0_B_3 c i a2 h2 a3 h3 a4 h4 a5 h5 hc x0 x1 xo2 xo3 = k0_pay5 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h3.read_unread, h5.read_unread,
    View.ld_unit_zero (S := S1x16384) hz2, View.ld_unit_zero (S := S1x32x1) hz3]

/-- At the first block of a half the pass leaves, in the running sums, the update of the zero block. -/
theorem out_A_2 (c : Dev nD) (i : grid0.Coords) (a2 : Memref sig .tc .vmem S16384x16 .f32) (h2 : a2.IsWhole) (a3 : Memref sig .tc .vmem S1x16384 .i32) (h3 : a3.IsWhole) (a4 : Memref sig .tc .vmem S1x32x16 .f32) (h4 : a4.IsWhole) (a5 : Memref sig .tc .vmem S1x32x1 .f32) (h5 : a5.IsWhole) (hc : cond0_0 i)
    (x0 : Vec F S16384x16 .f32) (x1 : Vec F S1x16384 .i32) :
    out0_A_2 c i a2 h2 a3 h3 a4 h4 a5 h5 hc x0 x1 = k0_pay4 x1 x0 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x32x16) hz3]
  simp only [View.readAt_eq_ld, h2.read_unread, h3.read_unread, View.ld_unit_zero (S := S16384x16) hz2,
    View.ld_unit_zero (S := S1x16384) hz2, View.readCov_unit_zero (S := S1x32x16) _ hz3]

/-- At the first block of a half the pass leaves, in the running counts, the update of the zero block. -/
theorem out_A_3 (c : Dev nD) (i : grid0.Coords) (a2 : Memref sig .tc .vmem S16384x16 .f32) (h2 : a2.IsWhole) (a3 : Memref sig .tc .vmem S1x16384 .i32) (h3 : a3.IsWhole) (a4 : Memref sig .tc .vmem S1x32x16 .f32) (h4 : a4.IsWhole) (a5 : Memref sig .tc .vmem S1x32x1 .f32) (h5 : a5.IsWhole) (hc : cond0_0 i)
    (x0 : Vec F S16384x16 .f32) (x1 : Vec F S1x16384 .i32) :
    out0_A_3 c i a2 h2 a3 h3 a4 h4 a5 h5 hc x0 x1 = k0_pay5 x1 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x32x1) hz3]
  simp only [View.readAt_eq_ld, h3.read_unread,
    View.ld_unit_zero (S := S1x16384) hz2, View.readCov_unit_zero (S := S1x32x1) _ hz3]

end Pieces

section AtIndex

/-- The weight word: the comparison of a cluster number with a label word, widened and read as a number, is one
    when they agree and zero otherwise. -/
theorem oh_word (k : Fin 32) (l : BitVec 32) :
    ((((IntOp.cmpi .eq (BitVec.ofNat 32 k.val) l).setWidth 32).toInt : ℝ) : EReal) = Cert.Spec.oh k l := by
  unfold Cert.Spec.oh IntOp.cmpi
  by_cases h : l = BitVec.ofNat 32 k.val
  · subst h
    simp
  · have hb : (BitVec.ofNat 32 k.val == l) = false := by
      rw [beq_eq_false_iff_ne]; exact fun e => h e.symm
    rw [if_neg h]
    simp [hb]

/-- The weights at (k, j): the weight of lane j's label word in cluster k. -/
theorem wgt_apply (v3 : Vec Ideal S1x16384 .i32) (k : Fin 32) (j : Fin 16384) :
    (k0_pay3 (F := Ideal) v3 : S32x16384.Idx → EReal) (ix2 k j)
      = Cert.Spec.oh k ((v3 : S1x16384.Idx → BitVec 32) (ix2 0 j)) := by
  unfold k0_pay3
  dsimp only
  show FloatOps.sitofp .f32 ((IntOp.cmpi .eq (iota .tc S32x16384 32 [0] iota_S32x16384_d0_w32 (ix2 k j))
      (broadcastTo S32x16384 (shapeCast S1x16384 v3 shapeCasts_S1x16384_S1x16384) broadcasts_S1x16384_S32x16384
        (ix2 k j))).setWidth 32) = _
  rw [iota_single_apply, broadcastTo_1b_ab_apply, shapeCast_self]
  exact oh_word k _

/-- The product's left operand is read at (row of the result, position of the contraction). -/
theorem lhs_ax0 (y : S32x16.Idx) (q : dot_S32x16384_S16384x16_S32x16_1_0_0_1_n_n.contr.Idx) :
    (dot_S32x16384_S16384x16_S32x16_1_0_0_1_n_n.lhsIdx y q (0 : Fin S32x16384.rank)).val = (y 0).val := by
  unfold DotDims.lhsIdx
  rw [dif_neg (show ¬(0 : Fin S32x16384.rank) ∈ dot_S32x16384_S16384x16_S32x16_1_0_0_1_n_n.lhsBatch by decide),
    dif_pos (show (0 : Fin S32x16384.rank) ∈ dot_S32x16384_S16384x16_S32x16_1_0_0_1_n_n.lhsNonContracting by decide)]
  simp only [Fin.val_cast]
  have key : ∀ (p r : Nat) (hp : p < S32x16.rank) (hr : r < S32x16.rank), p = r → (y ⟨p, hp⟩).val = (y ⟨r, hr⟩).val :=
    fun p r hp hr h => by subst h; rfl
  exact key _ 0 _ (by decide) (by decide)

/-- … and, along the contracted axis, at the contraction's position. -/
theorem lhs_ax1 (y : S32x16.Idx) (i : Fin 16384) :
    (dot_S32x16384_S16384x16_S32x16_1_0_0_1_n_n.lhsIdx y
      ((contrEquiv1 dot_S32x16384_S16384x16_S32x16_1_0_0_1_n_n 16384 rfl rfl).symm i) (1 : Fin S32x16384.rank)).val = i.val :=
  (dot_S32x16384_S16384x16_S32x16_1_0_0_1_n_n.lhsIdx_val_of_single rfl y _).trans
    (contrEquiv1_symm_val dot_S32x16384_S16384x16_S32x16_1_0_0_1_n_n 16384 rfl rfl i)

/-- The product's right operand is read at (position of the contraction, column of the result). -/
theorem rhs_ax0 (y : S32x16.Idx) (i : Fin 16384) :
    (dot_S32x16384_S16384x16_S32x16_1_0_0_1_n_n.rhsIdx y
      ((contrEquiv1 dot_S32x16384_S16384x16_S32x16_1_0_0_1_n_n 16384 rfl rfl).symm i) (0 : Fin S16384x16.rank)).val = i.val :=
  (dot_S32x16384_S16384x16_S32x16_1_0_0_1_n_n.rhsIdx_val_of_single rfl y _).trans
    (contrEquiv1_symm_val dot_S32x16384_S16384x16_S32x16_1_0_0_1_n_n 16384 rfl rfl i)

/-- … and, along the kept axis, at the result's column. -/
theorem rhs_ax1 (y : S32x16.Idx) (q : dot_S32x16384_S16384x16_S32x16_1_0_0_1_n_n.contr.Idx) :
    (dot_S32x16384_S16384x16_S32x16_1_0_0_1_n_n.rhsIdx y q (1 : Fin S16384x16.rank)).val = (y 1).val := by
  unfold DotDims.rhsIdx
  rw [dif_neg (show ¬(1 : Fin S16384x16.rank) ∈ dot_S32x16384_S16384x16_S32x16_1_0_0_1_n_n.rhsBatch by decide),
    dif_pos (show (1 : Fin S16384x16.rank) ∈ dot_S32x16384_S16384x16_S32x16_1_0_0_1_n_n.rhsNonContracting by decide)]
  simp only [Fin.val_cast]
  have key : ∀ (p r : Nat) (hp : p < S32x16.rank) (hr : r < S32x16.rank), p = r → (y ⟨p, hp⟩).val = (y ⟨r, hr⟩).val :=
    fun p r hp hr h => by subst h; rfl
  exact key _ 1 _ (by decide) (by decide)

/-- The product of the weights with the block's points at (k, d): the sum over the block's lanes. -/
theorem mm_apply (W : FVec Ideal S32x16384 .f32) (X : FVec Ideal S16384x16 .f32) (k : Fin 32) (d : Fin 16) :
    FloatOps.matmul dot_S32x16384_S16384x16_S32x16_1_0_0_1_n_n none W X (constant (F := Ideal) S32x16 .f32 0x00000000#32) (ix2 k d)
      = ∑ j : Fin 16384, W (ix2 k j) * X (ix2 j d) := by
  rw [Ideal.matmul_constant_zero_apply,
    ← Equiv.sum_comp (contrEquiv1 dot_S32x16384_S16384x16_S32x16_1_0_0_1_n_n 16384 rfl rfl).symm]
  refine Finset.sum_congr rfl fun j _ => ?_
  congr 2
  · funext a
    apply Fin.ext
    match a with
    | ⟨0, _⟩ => exact lhs_ax0 _ _
    | ⟨1, _⟩ => exact lhs_ax1 _ _
  · funext a
    apply Fin.ext
    match a with
    | ⟨0, _⟩ => exact rhs_ax0 _ _
    | ⟨1, _⟩ => exact rhs_ax1 _ _

end AtIndex

section AtIndex2

/-- The zero block of sums reads zero. -/
theorem pay1_apply (k : Fin 32) (d : Fin 16) : (k0_pay1 (F := Ideal) : S1x32x16.Idx → EReal) (ix3 0 k d) = 0 := by
  unfold k0_pay1
  refine (shapeCast_ab_1ab_apply _ _ 0 k d).trans ?_
  exact Ideal.ofBits_zero_f32

/-- The zero block of counts reads zero. -/
theorem pay2_apply (k : Fin 32) : (k0_pay2 (F := Ideal) : S1x32x1.Idx → EReal) (ix3 0 k 0) = 0 := by
  unfold k0_pay2
  refine (shapeCast_ab_1ab_apply _ _ 0 k 0).trans ?_
  exact Ideal.ofBits_zero_f32

/-- The new running sums at (0, k, d): the old entry plus the block's sum of weight · coordinate. -/
theorem pay4_apply (v3 : Vec Ideal S1x16384 .i32) (v10 : Vec Ideal S16384x16 .f32) (v12 : Vec Ideal S1x32x16 .f32)
    (k : Fin 32) (d : Fin 16) :
    (k0_pay4 (F := Ideal) v3 v10 v12 : S1x32x16.Idx → EReal) (ix3 0 k d)
      = (v12 : S1x32x16.Idx → EReal) (ix3 0 k d)
        + ∑ j : Fin 16384, Cert.Spec.oh k ((v3 : S1x16384.Idx → BitVec 32) (ix2 0 j))
            * (v10 : S16384x16.Idx → EReal) (ix2 j d) := by
  unfold k0_pay4
  refine (shapeCast_ab_1ab_apply _ _ 0 k d).trans ?_
  rw [addf_apply]
  refine congrArg₂ (· + ·) (shapeCast_1ab_ab_apply _ _ k d) ?_
  rw [shapeCast_self]
  refine (mm_apply _ _ k d).trans ?_
  exact Finset.sum_congr rfl fun j _ => by rw [wgt_apply]

/-- A lane sum's index with the lane put back is (k, j). -/
theorem lift_eq (k : Fin 32) (j : Fin 16384) :
    reduces_S32x16384_S32.lift (ix1 k) j = (ix2 k j : S32x16384.Idx) := by
  funext a
  apply Fin.ext
  match a with
  | ⟨0, _⟩ => rfl
  | ⟨1, _⟩ => rfl

/-- The new running counts at (0, k, 0): the old entry plus the block's sum of weights. -/
theorem pay5_apply (v3 : Vec Ideal S1x16384 .i32) (v19 : Vec Ideal S1x32x1 .f32) (k : Fin 32) :
    (k0_pay5 (F := Ideal) v3 v19 : S1x32x1.Idx → EReal) (ix3 0 k 0)
      = (v19 : S1x32x1.Idx → EReal) (ix3 0 k 0)
        + ∑ j : Fin 16384, Cert.Spec.oh k ((v3 : S1x16384.Idx → BitVec 32) (ix2 0 j)) := by
  unfold k0_pay5
  dsimp only
  refine (shapeCast_ab_1ab_apply _ _ 0 k 0).trans ?_
  rw [addf_apply]
  refine congrArg₂ (· + ·) (shapeCast_1ab_ab_apply _ _ k 0) ?_
  refine (shapeCast_apply _ _ (ix2 k (0 : Fin 1)) (ix1 k) ?_).trans ?_
  · rw [Shape.rowMajor_val_two, Shape.rowMajor_val_one]
    show k.val = k.val * 1 + 0
    omega
  refine (Ideal.multiReduction_add_single _ _ _ _ _ (ix1 k)).trans ?_
  exact Finset.sum_congr rfl fun j _ => (congrArg _ (lift_eq k j)).trans (wgt_apply v3 k j)

end AtIndex2

variable (V : (c : Dev nD) → (b : Ref sig .tc) → Buf (Elt Ideal) ((c : Thread nD τ).loc b))

/-- The block of points the pass is given at point t. -/
abbrev xblk (c : Dev nD) (t : Fin cfg0.N) : S16384x16.Idx → EReal := iblk0 V c 0 t
/-- The block of label words the pass is given at point t. -/
abbrev lblk (c : Dev nD) (t : Fin cfg0.N) : S1x16384.Idx → BitVec 32 := iblk0 V c 1 t
/-- The running sums after point n. -/
abbrev sumsAt (c : Dev nD) (n : ℕ) (h : n < cfg0.N) : S1x32x16.Idx → EReal := (outsAt0 V c n h).1
/-- The running counts after point n. -/
abbrev cntsAt (c : Dev nD) (n : ℕ) (h : n < cfg0.N) : S1x32x1.Idx → EReal := (outsAt0 V c n h).2

/-- Where the input blocks sit: point t's block of points is block (t, 0), its block of labels block (0, t). -/
theorem in_idx : ∀ t : Fin cfg0.N, (win0_0.index t 0 = t.val ∧ win0_0.index t 1 = 0)
    ∧ (win0_1.index t 0 = 0 ∧ win0_1.index t 1 = t.val) :=
  (by decide +kernel : ∀ t : Fin grid0.N, (win0_0.index t 0 = t.val ∧ win0_0.index t 1 = 0)
    ∧ (win0_1.index t 0 = 0 ∧ win0_1.index t 1 = t.val))

/-- Lane j of point t's block of points is row 16384 · t + j of the padded points. -/
theorem xblk_apply (c : Dev nD) (t : Fin cfg0.N) (j : Fin 16384) (d : Fin 16)
    (hr : 16384 * t.val + j.val < Cert.Spec.NP) :
    xblk V c t (ix2 j d) = xp V c ⟨16384 * t.val + j.val, hr⟩ d := by
  have hi := (in_idx t).1
  unfold xblk iblk0 xp
  rw [View.read_apply]
  show V c main_v1 _ = V c main_v1 _
  congr 1
  funext a
  apply Fin.ext
  match a with
  | ⟨0, _⟩ => show win0_0.index t 0 * 16384 + 1 * j.val = 16384 * t.val + j.val; rw [hi.1]; omega
  | ⟨1, _⟩ => show win0_0.index t 1 * 16 + 1 * d.val = d.val; rw [hi.2]; omega

/-- Lane j of point t's block of label words is the word of row 16384 · t + j. -/
theorem lblk_apply (c : Dev nD) (t : Fin cfg0.N) (j : Fin 16384)
    (hr : 16384 * t.val + j.val < Cert.Spec.NP) :
    lblk V c t (ix2 0 j) = lp V c ⟨16384 * t.val + j.val, hr⟩ := by
  have hi := (in_idx t).2
  unfold lblk iblk0 lp
  rw [View.read_apply]
  show V c main_v3 _ = V c main_v3 _
  congr 1
  funext a
  apply Fin.ext
  match a with
  | ⟨0, _⟩ => show win0_1.index t 0 * 1 + 1 * 0 = 0; rw [hi.1]
  | ⟨1, _⟩ => show win0_1.index t 1 * 16384 + 1 * j.val = 16384 * t.val + j.val; rw [hi.2]; omega

/-- At the first block of a half the running sum at (k, d) is the block's sum of weight · coordinate. -/
theorem sums_first (c : Dev nD) (t : Fin cfg0.N) (h0 : t.val % 62 = 0) (k : Fin 32) (d : Fin 16) :
    sumsAt V c t.val t.isLt (ix3 0 k d)
      = ∑ j : Fin 16384, Cert.Spec.oh k (lblk V c t (ix2 0 j)) * xblk V c t (ix2 j d) := by
  unfold sumsAt
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) ((hcond0_0 t).mpr h0)
    (iblk0 V c 0 t) (iblk0 V c 1 t)) (ix3 0 k d)).trans ?_
  refine (pay4_apply (iblk0 V c 1 t) (iblk0 V c 0 t) (k0_pay1 (F := Ideal)) k d).trans ?_
  rw [pay1_apply, zero_add]

/-- At a later block the running sum at (k, d) is what the block before left plus the block's sum. -/
theorem sums_later (c : Dev nD) (t : Fin cfg0.N) (h0 : ¬t.val % 62 = 0) (k : Fin 32) (d : Fin 16) :
    sumsAt V c t.val t.isLt (ix3 0 k d)
      = sumsAt V c (t.val - 1) (Nat.lt_of_le_of_lt (Nat.sub_le _ _) t.isLt) (ix3 0 k d)
        + ∑ j : Fin 16384, Cert.Spec.oh k (lblk V c t (ix2 0 j)) * xblk V c t (ix2 j d) := by
  unfold sumsAt
  rw [outsAt0_B V c t h0]
  dsimp only
  refine (congrFun (out_B_2 (F := Ideal) c (grid0.coords t) (ms0_0 t) (hs0_0 t) (ms0_1 t) (hs0_1 t) (ms0_2 t) (hs0_2 t) (ms0_3 t) (hs0_3 t) (fun h => h0 ((hcond0_0 t).mp h))
    (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2) (ix3 0 k d)).trans ?_
  exact pay4_apply (iblk0 V c 1 t) (iblk0 V c 0 t)
    (outsAt0 V c (t.val - 1) (Nat.lt_of_le_of_lt (Nat.sub_le _ _) t.isLt)).1 k d

/-- At the first block of a half the running count at k is the block's sum of weights. -/
theorem cnts_first (c : Dev nD) (t : Fin cfg0.N) (h0 : t.val % 62 = 0) (k : Fin 32) :
    cntsAt V c t.val t.isLt (ix3 0 k 0) = ∑ j : Fin 16384, Cert.Spec.oh k (lblk V c t (ix2 0 j)) := by
  unfold cntsAt
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) ((hcond0_0 t).mpr h0)
    (iblk0 V c 0 t) (iblk0 V c 1 t)) (ix3 0 k 0)).trans ?_
  refine (pay5_apply (iblk0 V c 1 t) (k0_pay2 (F := Ideal)) k).trans ?_
  rw [pay2_apply, zero_add]

/-- At a later block the running count at k is what the block before left plus the block's sum of weights. -/
theorem cnts_later (c : Dev nD) (t : Fin cfg0.N) (h0 : ¬t.val % 62 = 0) (k : Fin 32) :
    cntsAt V c t.val t.isLt (ix3 0 k 0)
      = cntsAt V c (t.val - 1) (Nat.lt_of_le_of_lt (Nat.sub_le _ _) t.isLt) (ix3 0 k 0)
        + ∑ j : Fin 16384, Cert.Spec.oh k (lblk V c t (ix2 0 j)) := by
  unfold cntsAt
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (fun h => h0 ((hcond0_0 t).mp h))
    (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2) (ix3 0 k 0)).trans ?_
  exact pay5_apply (iblk0 V c 1 t)
    (outsAt0 V c (t.val - 1) (Nat.lt_of_le_of_lt (Nat.sub_le _ _) t.isLt)).2 k

/-- The running arrays depend on the point only. -/
theorem outsAt0_congr (c : Dev nD) (n n' : ℕ) (e : n = n') (h : n < cfg0.N) (h' : n' < cfg0.N) :
    outsAt0 V c n h = outsAt0 V c n' h' := by
  subst e; rfl

/-- Row 16384 · (62 c' + i) + j is lane j of block i of half c'. -/
theorem row_eq (cc : Fin 2) (i : Fin 62) (j : Fin 16384) (hr : 16384 * (62 * cc.val + i.val) + j.val < Cert.Spec.NP) :
    (⟨16384 * (62 * cc.val + i.val) + j.val, hr⟩ : Fin Cert.Spec.NP) = Cert.Spec.rowOf cc i j := by
  unfold Cert.Spec.rowOf
  apply Fin.ext
  show 16384 * (62 * cc.val + i.val) + j.val = (62 * cc.val + i.val) * 16384 + j.val
  omega

/-- What block s of half c' adds to the sum at (k, d); nothing past the last block. -/
def blkSum (c : Dev nD) (cc : Fin 2) (k : Fin 32) (d : Fin 16) (s : ℕ) : EReal :=
  if hs : s < 62 then
    ∑ j : Fin 16384, Cert.Spec.oh k (lp V c (Cert.Spec.rowOf cc ⟨s, hs⟩ j)) * xp V c (Cert.Spec.rowOf cc ⟨s, hs⟩ j) d
  else 0

/-- What block s of half c' adds to the count at k; nothing past the last block. -/
def blkCnt (c : Dev nD) (cc : Fin 2) (k : Fin 32) (s : ℕ) : EReal :=
  if hs : s < 62 then ∑ j : Fin 16384, Cert.Spec.oh k (lp V c (Cert.Spec.rowOf cc ⟨s, hs⟩ j)) else 0

/-- The update's term at block i of half c', read off the padded arrays. -/
theorem sum_term (c : Dev nD) (cc : Fin 2) (k : Fin 32) (d : Fin 16) (i : ℕ) (hi : i < 62)
    (h : 62 * cc.val + i < cfg0.N) :
    ∑ j : Fin 16384, Cert.Spec.oh k (lblk V c ⟨62 * cc.val + i, h⟩ (ix2 0 j)) * xblk V c ⟨62 * cc.val + i, h⟩ (ix2 j d)
      = blkSum V c cc k d i := by
  unfold blkSum
  rw [dif_pos hi]
  refine Finset.sum_congr rfl fun j _ => ?_
  have hr : 16384 * (62 * cc.val + i) + j.val < Cert.Spec.NP := by
    have := cc.isLt; have := j.isLt; show _ < 2031616; omega
  rw [xblk_apply V c ⟨62 * cc.val + i, h⟩ j d hr, lblk_apply V c ⟨62 * cc.val + i, h⟩ j hr]
  exact congrArg (fun r => Cert.Spec.oh k (lp V c r) * xp V c r d) (row_eq cc ⟨i, hi⟩ j hr)

/-- The same for the counts. -/
theorem cnt_term (c : Dev nD) (cc : Fin 2) (k : Fin 32) (i : ℕ) (hi : i < 62)
    (h : 62 * cc.val + i < cfg0.N) :
    ∑ j : Fin 16384, Cert.Spec.oh k (lblk V c ⟨62 * cc.val + i, h⟩ (ix2 0 j)) = blkCnt V c cc k i := by
  unfold blkCnt
  rw [dif_pos hi]
  refine Finset.sum_congr rfl fun j _ => ?_
  have hr : 16384 * (62 * cc.val + i) + j.val < Cert.Spec.NP := by
    have := cc.isLt; have := j.isLt; show _ < 2031616; omega
  rw [lblk_apply V c ⟨62 * cc.val + i, h⟩ j hr]
  exact congrArg (fun r => Cert.Spec.oh k (lp V c r)) (row_eq cc ⟨i, hi⟩ j hr)

/-- After block i of half c' the running sum at (k, d) is the sum of the blocks 0 … i of that half. -/
theorem sums_inv (c : Dev nD) (cc : Fin 2) (k : Fin 32) (d : Fin 16) (i : ℕ) :
    ∀ (hi : i < 62) (h : 62 * cc.val + i < cfg0.N),
      sumsAt V c (62 * cc.val + i) h (ix3 0 k d) = ∑ s ∈ Finset.range (i + 1), blkSum V c cc k d s := by
  have hN : cfg0.N = 124 := N_0
  induction i with
  | zero =>
    intro hi h
    have h0 : (⟨62 * cc.val + 0, h⟩ : Fin cfg0.N).val % 62 = 0 := by dsimp only; omega
    refine (sums_first V c ⟨62 * cc.val + 0, h⟩ h0 k d).trans ?_
    rw [Finset.sum_range_one]
    exact sum_term V c cc k d 0 hi h
  | succ i ih =>
    intro hi h
    have hB : ¬(⟨62 * cc.val + (i + 1), h⟩ : Fin cfg0.N).val % 62 = 0 := by dsimp only; omega
    refine (sums_later V c ⟨62 * cc.val + (i + 1), h⟩ hB k d).trans ?_
    rw [Finset.sum_range_succ _ (i + 1), ← sum_term V c cc k d (i + 1) hi h]
    refine congrArg (· + _) ?_
    refine (congrFun (congrArg Prod.fst (outsAt0_congr V c _ (62 * cc.val + i) (by dsimp only; omega) _
      (by omega))) (ix3 0 k d)).trans ?_
    exact ih (by omega) (by omega)

/-- After block i of half c' the running count at k is the sum of the blocks 0 … i of that half. -/
theorem cnts_inv (c : Dev nD) (cc : Fin 2) (k : Fin 32) (i : ℕ) :
    ∀ (hi : i < 62) (h : 62 * cc.val + i < cfg0.N),
      cntsAt V c (62 * cc.val + i) h (ix3 0 k 0) = ∑ s ∈ Finset.range (i + 1), blkCnt V c cc k s := by
  have hN : cfg0.N = 124 := N_0
  induction i with
  | zero =>
    intro hi h
    have h0 : (⟨62 * cc.val + 0, h⟩ : Fin cfg0.N).val % 62 = 0 := by dsimp only; omega
    refine (cnts_first V c ⟨62 * cc.val + 0, h⟩ h0 k).trans ?_
    rw [Finset.sum_range_one]
    exact cnt_term V c cc k 0 hi h
  | succ i ih =>
    intro hi h
    have hB : ¬(⟨62 * cc.val + (i + 1), h⟩ : Fin cfg0.N).val % 62 = 0 := by dsimp only; omega
    refine (cnts_later V c ⟨62 * cc.val + (i + 1), h⟩ hB k).trans ?_
    rw [Finset.sum_range_succ _ (i + 1), ← cnt_term V c cc k (i + 1) hi h]
    refine congrArg (· + _) ?_
    refine (congrFun (congrArg Prod.snd (outsAt0_congr V c _ (62 * cc.val + i) (by dsimp only; omega) _
      (by omega))) (ix3 0 k 0)).trans ?_
    exact ih (by omega) (by omega)

/-- So the last block of half c' leaves that half's whole sum. -/
theorem sums_last (c : Dev nD) (cc : Fin 2) (k : Fin 32) (d : Fin 16) (h : 62 * cc.val + 61 < cfg0.N) :
    sumsAt V c (62 * cc.val + 61) h (ix3 0 k d) = Cert.Spec.halfSum (xp V c) (lp V c) cc k d := by
  rw [sums_inv V c cc k d 61 (by omega) h, Finset.sum_range]
  unfold Cert.Spec.halfSum blkSum
  exact Finset.sum_congr rfl fun i _ => dif_pos i.isLt

/-- And that half's whole count. -/
theorem cnts_last (c : Dev nD) (cc : Fin 2) (k : Fin 32) (h : 62 * cc.val + 61 < cfg0.N) :
    cntsAt V c (62 * cc.val + 61) h (ix3 0 k 0) = Cert.Spec.halfCnt (lp V c) cc k := by
  rw [cnts_inv V c cc k 61 (by omega) h, Finset.sum_range]
  unfold Cert.Spec.halfCnt blkCnt
  exact Finset.sum_congr rfl fun i _ => dif_pos i.isLt

/-- The sums array the pass ends at: entry (c', k, d) is half c'’s sum of weight · coordinate. -/
def sumsArr (c : Dev nD) : S2x32x16.Idx → EReal :=
  fun i => Cert.Spec.halfSum (xp V c) (lp V c) (i 0) (i 1) (i 2)

/-- The counts array the pass ends at: entry (c', k, 0) is half c'’s sum of weights. -/
def cntsArr (c : Dev nD) : S2x32x1.Idx → EReal :=
  fun i => Cert.Spec.halfCnt (lp V c) (i 0) (i 1)

/-- Where the output blocks sit: point t's blocks are block (t / 62, 0, 0) of their arrays, and they are whole. -/
theorem out_idx : ∀ t : Fin cfg0.N,
    (win0_2.index t 0 = t.val / 62 ∧ win0_2.index t 1 = 0 ∧ win0_2.index t 2 = 0)
    ∧ (win0_3.index t 0 = t.val / 62 ∧ win0_3.index t 1 = 0 ∧ win0_3.index t 2 = 0)
    ∧ (win0_2.xsize (grid0.coords t) 0 = 1 ∧ win0_2.xsize (grid0.coords t) 1 = 32 ∧ win0_2.xsize (grid0.coords t) 2 = 16)
    ∧ (win0_3.xsize (grid0.coords t) 0 = 1 ∧ win0_3.xsize (grid0.coords t) 1 = 32 ∧ win0_3.xsize (grid0.coords t) 2 = 1) :=
  (by decide +kernel : ∀ t : Fin grid0.N,
    (win0_2.index t 0 = t.val / 62 ∧ win0_2.index t 1 = 0 ∧ win0_2.index t 2 = 0)
    ∧ (win0_3.index t 0 = t.val / 62 ∧ win0_3.index t 1 = 0 ∧ win0_3.index t 2 = 0)
    ∧ (win0_2.xsize (grid0.coords t) 0 = 1 ∧ win0_2.xsize (grid0.coords t) 1 = 32 ∧ win0_2.xsize (grid0.coords t) 2 = 16)
    ∧ (win0_3.xsize (grid0.coords t) 0 = 1 ∧ win0_3.xsize (grid0.coords t) 1 = 32 ∧ win0_3.xsize (grid0.coords t) 2 = 1))

/-- What the last block of a half writes back is that half's block of the sums array. -/
theorem sums_flushed (c : Dev nD) (t : Fin cfg0.N) (hf : (cfg0.win 2).flush t = true) :
    (dat0 V c).flushed 2 t = ((cfg0.win 2).blk t).view.read (Elt Ideal) (sumsArr V c) := by
  have hN : cfg0.N = 124 := N_0
  have h61 : t.val % 62 = 61 := (flush0_2 t).mp hf
  have hi := (out_idx t).1
  have hcc : t.val / 62 < 2 := by have := t.isLt; omega
  have ht : t.val = 62 * (t.val / 62) + 61 := by omega
  show (cfg0.win 2).cut (grid0.coords t) ((dat0 V c).after 2 t) = _
  rw [after0_2]
  funext y
  obtain ⟨u, k, d, rfl⟩ : ∃ (u : Fin 1) (k : Fin 32) (d : Fin 16), y = ix3 u k d := ⟨y 0, y 1, y 2, eq_ix3 y⟩
  obtain rfl : u = 0 := Subsingleton.elim _ _
  rw [View.read_apply]
  refine Eq.trans (b := sumsAt V c t.val t.isLt (ix3 0 k d)) rfl ?_
  refine ((congrFun (congrArg Prod.fst (outsAt0_congr V c _ (62 * (⟨t.val / 62, hcc⟩ : Fin 2).val + 61) ht _
    (by dsimp only; omega))) (ix3 0 k d)).trans (sums_last V c ⟨t.val / 62, hcc⟩ k d _)).trans ?_
  show _ = sumsArr V c _
  unfold sumsArr
  refine congr (congr (congrArg (Cert.Spec.halfSum (xp V c) (lp V c)) ?_) ?_) ?_ <;> apply Fin.ext
  · show t.val / 62 = win0_2.index t 0 * 1 + 1 * 0
    rw [hi.1]; omega
  · show k.val = win0_2.index t 1 * 32 + 1 * k.val
    rw [hi.2.1]; omega
  · show d.val = win0_2.index t 2 * 16 + 1 * d.val
    rw [hi.2.2]; omega

/-- Every entry of the sums array lies in the block its half's last point writes back. -/
theorem sums_cover (i : S2x32x16.Idx) :
    ∃ t : Fin cfg0.N, (cfg0.win 2).flush t = true ∧ i ∈ ((cfg0.win 2).blk t).view.set := by
  have hN : cfg0.N = 124 := N_0
  have h0 : (i 0).val < 2 := (i 0).isLt
  have h1 : (i 1).val < 32 := (i 1).isLt
  have h2 : (i 2).val < 16 := (i 2).isLt
  have htl : 62 * (i 0).val + 61 < cfg0.N := by omega
  refine ⟨⟨62 * (i 0).val + 61, htl⟩, (flush0_2 _).mpr (by dsimp only; omega), ?_⟩
  have hi := (out_idx ⟨62 * (i 0).val + 61, htl⟩).1
  have hx := (out_idx ⟨62 * (i 0).val + 61, htl⟩).2.2.1
  dsimp only at hi
  show i ∈ ((View.whole main_v4_0).slice (win0_2.rect ⟨62 * (i 0).val + 61, htl⟩)).set
  rw [View.set_slice_whole, Rect.mem_set_unit]
  intro a
  match a with
  | ⟨0, _⟩ =>
    show win0_2.index ⟨62 * (i 0).val + 61, htl⟩ 0 * 1 ≤ (i 0 : Nat)
      ∧ (i 0 : Nat) < win0_2.index ⟨62 * (i 0).val + 61, htl⟩ 0 * 1 + win0_2.xsize (grid0.coords ⟨62 * (i 0).val + 61, htl⟩) 0
    rw [hi.1, hx.1]; omega
  | ⟨1, _⟩ =>
    show win0_2.index ⟨62 * (i 0).val + 61, htl⟩ 1 * 32 ≤ (i 1 : Nat)
      ∧ (i 1 : Nat) < win0_2.index ⟨62 * (i 0).val + 61, htl⟩ 1 * 32 + win0_2.xsize (grid0.coords ⟨62 * (i 0).val + 61, htl⟩) 1
    rw [hi.2.1, hx.2.1]; omega
  | ⟨2, _⟩ =>
    show win0_2.index ⟨62 * (i 0).val + 61, htl⟩ 2 * 16 ≤ (i 2 : Nat)
      ∧ (i 2 : Nat) < win0_2.index ⟨62 * (i 0).val + 61, htl⟩ 2 * 16 + win0_2.xsize (grid0.coords ⟨62 * (i 0).val + 61, htl⟩) 2
    rw [hi.2.2, hx.2.2]; omega

/-- So the sums array ends at the halves' sums. -/
theorem sums_final (c : Dev nD) : (dat0 V c).arrAt 2 cfg0.N = sumsArr V c :=
  (dat0 V c).arrAt_eq_of_cover 2 (sumsArr V c) (sums_flushed V c) fun i => sums_cover i

/-- What the pass leaves in the 2 × 32 × 16 array: entry (c', k, d) is half c'’s sum of weight · coordinate. -/
theorem sums_arr (c : Dev nD) (cc : Fin 2) (k : Fin 32) (d : Fin 16) :
    ((dat0 V c).arrAt 2 cfg0.N : S2x32x16.Idx → EReal) (ix3 cc k d) = Cert.Spec.halfSum (xp V c) (lp V c) cc k d := by
  exact congrFun (sums_final V c) (ix3 cc k d)

/-- What the last block of a half writes back is that half's block of the counts array. -/
theorem cnts_flushed (c : Dev nD) (t : Fin cfg0.N) (hf : (cfg0.win 3).flush t = true) :
    (dat0 V c).flushed 3 t = ((cfg0.win 3).blk t).view.read (Elt Ideal) (cntsArr V c) := by
  have hN : cfg0.N = 124 := N_0
  have h61 : t.val % 62 = 61 := (flush0_3 t).mp hf
  have hi := (out_idx t).2.1
  have hcc : t.val / 62 < 2 := by have := t.isLt; omega
  have ht : t.val = 62 * (t.val / 62) + 61 := by omega
  show (cfg0.win 3).cut (grid0.coords t) ((dat0 V c).after 3 t) = _
  rw [after0_3]
  funext y
  obtain ⟨u, k, z, rfl⟩ : ∃ (u : Fin 1) (k : Fin 32) (z : Fin 1), y = ix3 u k z := ⟨y 0, y 1, y 2, eq_ix3 y⟩
  obtain rfl : u = 0 := Subsingleton.elim _ _
  obtain rfl : z = 0 := Subsingleton.elim _ _
  rw [View.read_apply]
  refine Eq.trans (b := cntsAt V c t.val t.isLt (ix3 0 k 0)) rfl ?_
  refine ((congrFun (congrArg Prod.snd (outsAt0_congr V c _ (62 * (⟨t.val / 62, hcc⟩ : Fin 2).val + 61) ht _
    (by dsimp only; omega))) (ix3 0 k 0)).trans (cnts_last V c ⟨t.val / 62, hcc⟩ k _)).trans ?_
  show _ = cntsArr V c _
  unfold cntsArr
  refine congr (congrArg (Cert.Spec.halfCnt (lp V c)) ?_) ?_ <;> apply Fin.ext
  · show t.val / 62 = win0_3.index t 0 * 1 + 1 * 0
    rw [hi.1]; omega
  · show k.val = win0_3.index t 1 * 32 + 1 * k.val
    rw [hi.2.1]; omega

/-- Every entry of the counts array lies in the block its half's last point writes back. -/
theorem cnts_cover (i : S2x32x1.Idx) :
    ∃ t : Fin cfg0.N, (cfg0.win 3).flush t = true ∧ i ∈ ((cfg0.win 3).blk t).view.set := by
  have hN : cfg0.N = 124 := N_0
  have h0 : (i 0).val < 2 := (i 0).isLt
  have h1 : (i 1).val < 32 := (i 1).isLt
  have h2 : (i 2).val < 1 := (i 2).isLt
  have htl : 62 * (i 0).val + 61 < cfg0.N := by omega
  refine ⟨⟨62 * (i 0).val + 61, htl⟩, (flush0_3 _).mpr (by dsimp only; omega), ?_⟩
  have hi := (out_idx ⟨62 * (i 0).val + 61, htl⟩).2.1
  have hx := (out_idx ⟨62 * (i 0).val + 61, htl⟩).2.2.2
  dsimp only at hi
  show i ∈ ((View.whole main_v4_1).slice (win0_3.rect ⟨62 * (i 0).val + 61, htl⟩)).set
  rw [View.set_slice_whole, Rect.mem_set_unit]
  intro a
  match a with
  | ⟨0, _⟩ =>
    show win0_3.index ⟨62 * (i 0).val + 61, htl⟩ 0 * 1 ≤ (i 0 : Nat)
      ∧ (i 0 : Nat) < win0_3.index ⟨62 * (i 0).val + 61, htl⟩ 0 * 1 + win0_3.xsize (grid0.coords ⟨62 * (i 0).val + 61, htl⟩) 0
    rw [hi.1, hx.1]; omega
  | ⟨1, _⟩ =>
    show win0_3.index ⟨62 * (i 0).val + 61, htl⟩ 1 * 32 ≤ (i 1 : Nat)
      ∧ (i 1 : Nat) < win0_3.index ⟨62 * (i 0).val + 61, htl⟩ 1 * 32 + win0_3.xsize (grid0.coords ⟨62 * (i 0).val + 61, htl⟩) 1
    rw [hi.2.1, hx.2.1]; omega
  | ⟨2, _⟩ =>
    show win0_3.index ⟨62 * (i 0).val + 61, htl⟩ 2 * 1 ≤ (i 2 : Nat)
      ∧ (i 2 : Nat) < win0_3.index ⟨62 * (i 0).val + 61, htl⟩ 2 * 1 + win0_3.xsize (grid0.coords ⟨62 * (i 0).val + 61, htl⟩) 2
    rw [hi.2.2, hx.2.2]; omega

/-- So the counts array ends at the halves' counts. -/
theorem cnts_final (c : Dev nD) : (dat0 V c).arrAt 3 cfg0.N = cntsArr V c :=
  (dat0 V c).arrAt_eq_of_cover 3 (cntsArr V c) (cnts_flushed V c) fun i => cnts_cover i

/-- What the pass leaves in the 2 × 32 × 1 array: entry (c', k, 0) is half c'’s sum of weights. -/
theorem cnts_arr (c : Dev nD) (cc : Fin 2) (k : Fin 32) :
    ((dat0 V c).arrAt 3 cfg0.N : S2x32x1.Idx → EReal) (ix3 cc k 0) = Cert.Spec.halfCnt (lp V c) cc k := by
  exact congrFun (cnts_final V c) (ix3 cc k 0)

end Cert.KernelIdeal.Region0

end
-- ==== Proof.KRegion1.lean ====
/-
  The second accumulating pass.  At block i of half c it adds, to the running 32 × 1 array of half c (reset to zero at
  i = 0), for every cluster k the sum over the block's 16384 rows of  hinge (‖x‖² − 2 x·μ_k + ‖μ_k‖²)⁺ · weight.  So
  half c's array ends at the sum over its 62 · 16384 rows.

  The order of the argument: what one run of the body leaves in the output's staging buffer, as the body's arithmetic
  over the blocks it loads (first block of a half: over the zero block; later blocks: over what the block before left);
  that arithmetic read at an index (the two block products as sums over the 16 coordinates, the lane sums, the one-hot
  weight); the blocks as rows of the padded arrays; by induction on the point, the running entry as a sum of per-block
  terms; and the two write-backs, at the last block of each half, which together cover the array.
-/
import proofs.«424489_j35948876268437_3_alg».proof.Proof.KDefs
import Idealize.ShloMosaic.Lib.Pipeline.Value
import Idealize.ShloMosaic.PureOps.Ideal.Laws
import Idealize.ShloMosaic.Lib.ValueLayout
import Idealize.ShloMosaic.Lib.Tactic

set_option maxRecDepth 16384

noncomputable section

namespace Cert.KernelIdeal.Region1

open Cert.KernelIdeal Cert.KernelIdeal.Gen Cert.KernelIdeal.KDefs
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later block of a half: the body leaves the running contents plus the block's lane sums. -/
theorem out_B (c : Dev nD) (i : grid1.Coords) (a2 : Memref sig .tc .vmem S16384x16 .f32) (h2 : a2.IsWhole)
    (a3 : Memref sig .tc .vmem S1x16384 .i32) (h3 : a3.IsWhole) (a4 : Memref sig .tc .vmem S32x16 .f32) (h4 : a4.IsWhole)
    (a5 : Memref sig .tc .vmem S1x32x1 .f32) (h5 : a5.IsWhole) (hc : ¬cond1_0 i)
    (x0 : Vec F S16384x16 .f32) (x1 : Vec F S1x16384 .i32) (x2 : Vec F S32x16 .f32) (xo : Vec F S1x32x1 .f32) :
    out1_B_3 c i a2 h2 a3 h3 a4 h4 a5 h5 hc x0 x1 x2 xo = k1_pay1 (k1_pay3 x1 x0 x2) (k1_pay4 xo) := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz3]
  simp only [View.readAt_eq_ld, h2.read_unread, h3.read_unread, h4.read_unread, h5.read_unread,
    View.ld_unit_zero (S := S16384x16) hz2, View.ld_unit_zero (S := S1x16384) hz2, View.ld_unit_zero (S := S32x16) hz2,
    View.ld_unit_zero (S := S1x32x1) hz3]

/-- The first block of a half: the same over the zero block. -/
theorem out_A (c : Dev nD) (i : grid1.Coords) (a2 : Memref sig .tc .vmem S16384x16 .f32) (h2 : a2.IsWhole)
    (a3 : Memref sig .tc .vmem S1x16384 .i32) (h3 : a3.IsWhole) (a4 : Memref sig .tc .vmem S32x16 .f32) (h4 : a4.IsWhole)
    (a5 : Memref sig .tc .vmem S1x32x1 .f32) (h5 : a5.IsWhole) (hc : cond1_0 i)
    (x0 : Vec F S16384x16 .f32) (x1 : Vec F S1x16384 .i32) (x2 : Vec F S32x16 .f32) :
    out1_A_3 c i a2 h2 a3 h3 a4 h4 a5 h5 hc x0 x1 x2 = k1_pay1 (k1_pay3 x1 x0 x2) (k1_pay4 (k1_pay2 (F := F))) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x32x1) hz3, View.readCov_unit_zero (S := S1x32x1) _ hz3]
  simp only [View.readAt_eq_ld, h2.read_unread, h3.read_unread, h4.read_unread,
    View.ld_unit_zero (S := S16384x16) hz2, View.ld_unit_zero (S := S1x16384) hz2, View.ld_unit_zero (S := S32x16) hz2]

end Pieces

section Index

/-! ### The two block products' index maps, coordinate by coordinate -/

theorem lhsA_0 (j : S32x16384.Idx) (q : dot_S32x16_S16384x16_S32x16384_1_1_0_0_n_n.contr.Idx) :
    (dot_S32x16_S16384x16_S32x16384_1_1_0_0_n_n.lhsIdx j q 0).val = (j 0).val := by
  simp [DotDims.lhsIdx, dot_S32x16_S16384x16_S32x16384_1_1_0_0_n_n]
  rfl

theorem lhsA_1 (j : S32x16384.Idx) (q : dot_S32x16_S16384x16_S32x16384_1_1_0_0_n_n.contr.Idx) :
    (dot_S32x16_S16384x16_S32x16384_1_1_0_0_n_n.lhsIdx j q 1).val = (q ⟨0, by decide⟩).val :=
  dot_S32x16_S16384x16_S32x16384_1_1_0_0_n_n.lhsIdx_val_of_single rfl j q

theorem rhsA_0 (j : S32x16384.Idx) (q : dot_S32x16_S16384x16_S32x16384_1_1_0_0_n_n.contr.Idx) :
    (dot_S32x16_S16384x16_S32x16384_1_1_0_0_n_n.rhsIdx j q 0).val = (j 1).val := by
  simp [DotDims.rhsIdx, dot_S32x16_S16384x16_S32x16384_1_1_0_0_n_n]
  rfl

theorem rhsA_1 (j : S32x16384.Idx) (q : dot_S32x16_S16384x16_S32x16384_1_1_0_0_n_n.contr.Idx) :
    (dot_S32x16_S16384x16_S32x16384_1_1_0_0_n_n.rhsIdx j q 1).val = (q ⟨0, by decide⟩).val :=
  dot_S32x16_S16384x16_S32x16384_1_1_0_0_n_n.rhsIdx_val_of_single rfl j q

theorem rhsB_0 (j : S1x16384.Idx) (q : dot_S1x16_S16384x16_S1x16384_1_1_0_0_n_n.contr.Idx) :
    (dot_S1x16_S16384x16_S1x16384_1_1_0_0_n_n.rhsIdx j q 0).val = (j 1).val := by
  simp [DotDims.rhsIdx, dot_S1x16_S16384x16_S1x16384_1_1_0_0_n_n]
  rfl

theorem rhsB_1 (j : S1x16384.Idx) (q : dot_S1x16_S16384x16_S1x16384_1_1_0_0_n_n.contr.Idx) :
    (dot_S1x16_S16384x16_S1x16384_1_1_0_0_n_n.rhsIdx j q 1).val = (q ⟨0, by decide⟩).val :=
  dot_S1x16_S16384x16_S1x16384_1_1_0_0_n_n.rhsIdx_val_of_single rfl j q

end Index

section Index2

/-- cross[k, j] = Σ_d M[k, d] · X[j, d]. -/
theorem cross_apply (M : FVec Ideal S32x16 .f32) (X : FVec Ideal S16384x16 .f32) (k : Fin 32) (j : Fin 16384) :
    matmul dot_S32x16_S16384x16_S32x16384_1_1_0_0_n_n none M X (constant (F := Ideal) S32x16384 .f32 0x00000000#32) (ix2 k j)
      = ∑ d : Fin 16, M (ix2 k d) * X (ix2 j d) := by
  refine (Ideal.matmul_constant_zero_apply dot_S32x16_S16384x16_S32x16384_1_1_0_0_n_n none M X (ix2 k j)).trans ?_
  rw [← Equiv.sum_comp (contrEquiv1 dot_S32x16_S16384x16_S32x16384_1_1_0_0_n_n 16 rfl rfl).symm]
  refine Finset.sum_congr rfl fun d _ => ?_
  have hq := contrEquiv1_symm_val dot_S32x16_S16384x16_S32x16384_1_1_0_0_n_n 16 rfl rfl d
  congr 1
  · refine congrArg M (funext fun a => Fin.ext ?_)
    match a with
    | ⟨0, _⟩ => exact lhsA_0 _ _
    | ⟨1, _⟩ => exact (lhsA_1 _ _).trans hq
  · refine congrArg X (funext fun a => Fin.ext ?_)
    match a with
    | ⟨0, _⟩ => exact rhsA_0 _ _
    | ⟨1, _⟩ => exact (rhsA_1 _ _).trans hq

/-- The ones-vector product: xn2[0, j] = Σ_d 1 · Y[j, d]. -/
theorem ones_apply (o : Ideal .f32) (Y : FVec Ideal S16384x16 .f32) (u : Fin 1) (j : Fin 16384) :
    matmul dot_S1x16_S16384x16_S1x16384_1_1_0_0_n_n none (broadcast S1x16 o : FVec Ideal S1x16 .f32) Y (constant (F := Ideal) S1x16384 .f32 0x00000000#32) (ix2 u j)
      = ∑ d : Fin 16, o * Y (ix2 j d) := by
  refine (Ideal.matmul_constant_zero_apply dot_S1x16_S16384x16_S1x16384_1_1_0_0_n_n none (broadcast S1x16 o : FVec Ideal S1x16 .f32) Y (ix2 u j)).trans ?_
  rw [← Equiv.sum_comp (contrEquiv1 dot_S1x16_S16384x16_S1x16384_1_1_0_0_n_n 16 rfl rfl).symm]
  refine Finset.sum_congr rfl fun d _ => ?_
  have hq := contrEquiv1_symm_val dot_S1x16_S16384x16_S1x16384_1_1_0_0_n_n 16 rfl rfl d
  congr 1
  refine congrArg Y (funext fun a => Fin.ext ?_)
  match a with
  | ⟨0, _⟩ => exact rhsB_0 _ _
  | ⟨1, _⟩ => exact (rhsB_1 _ _).trans hq

/-- A 32-vector viewed as a 32 × 1 column. -/
theorem col_apply {α : Type} (v : S32.Idx → α) (k : Fin 32) (z : Fin 1) :
    shapeCast S32x1 v shapeCasts_S32_S32x1 (ix2 k z) = v (ix1 k) :=
  shapeCast_apply v _ _ _ (by
    have hz : z.val = 0 := by omega
    rw [Shape.rowMajor_val_one, Shape.rowMajor_val_two]
    show k.val = k.val * 1 + z.val
    rw [hz]; omega)

/-- The lane sum of a 32 × 16384 array, row k. -/
theorem lane_sum (v : FVec Ideal S32x16384 .f32) (k : Fin 32) :
    multiReduction (F := Ideal) .add [1] S32 v 0x00000000#32 reduces_S32x16384_S32 (.inl rfl) rfl (ix1 k)
      = ∑ j : Fin 16384, v (ix2 k j) := by
  refine (Ideal.multiReduction_add_single v _ reduces_S32x16384_S32 (.inl rfl) rfl (ix1 k)).trans ?_
  refine Finset.sum_congr rfl fun j _ => congrArg v (funext fun a => Fin.ext ?_)
  match a with
  | ⟨0, _⟩ => rfl
  | ⟨1, _⟩ => rfl

/-- The coordinate sum of a 32 × 16 array, row k. -/
theorem coord_sum (v : FVec Ideal S32x16 .f32) (k : Fin 32) :
    multiReduction (F := Ideal) .add [1] S32 v 0x00000000#32 reduces_S32x16_S32 (.inl rfl) rfl (ix1 k)
      = ∑ d : Fin 16, v (ix2 k d) := by
  refine (Ideal.multiReduction_add_single v _ reduces_S32x16_S32 (.inl rfl) rfl (ix1 k)).trans ?_
  refine Finset.sum_congr rfl fun j _ => congrArg v (funext fun a => Fin.ext ?_)
  match a with
  | ⟨0, _⟩ => rfl
  | ⟨1, _⟩ => rfl

end Index2

section Index3

theorem sqrt_apply' {s : Shape} {φ : FTy} (v : FVec Ideal s φ) (i : s.Idx) : sqrt v i = Ideal.sqrt (v i) := rfl

/-- A row broadcast down the 32 rows. -/
theorem bc_row_apply {α : Type} (v : S1x16384.Idx → α) (k : Fin 32) (j : Fin 16384) :
    broadcastTo S32x16384 v broadcasts_S1x16384_S32x16384 (ix2 k j) = v (ix2 0 j) :=
  broadcastTo_apply v _ (ix2 k j) (ix2 0 j) (fun a => by
    match a with
    | ⟨0, _⟩ => rfl
    | ⟨1, _⟩ => rfl)

/-- A column broadcast along the 16384 lanes. -/
theorem bc_col_apply {α : Type} (v : S32x1.Idx → α) (k : Fin 32) (j : Fin 16384) :
    broadcastTo S32x16384 v broadcasts_S32x1_S32x16384 (ix2 k j) = v (ix2 k 0) :=
  broadcastTo_apply v _ (ix2 k j) (ix2 k 0) (fun a => by
    match a with
    | ⟨0, _⟩ => rfl
    | ⟨1, _⟩ => rfl)

/-- The one-hot weight at (k, j) is the weight of lane j's label in cluster k. -/
theorem weight_apply (L : IVec S1x16384 32) (k : Fin 32) (j : Fin 16384) :
    (sitofp .f32 (extui 32 (cmpi .eq (iota .tc S32x16384 32 [0] iota_S32x16384_d0_w32)
        (broadcastTo S32x16384 L broadcasts_S1x16384_S32x16384)) natLt_1_32) : FVec Ideal S32x16384 .f32) (ix2 k j)
      = Cert.Spec.oh k (L (ix2 0 j)) := by
  have hi : iota .tc S32x16384 32 [0] iota_S32x16384_d0_w32 (ix2 k j) = BitVec.ofNat 32 k.val :=
    iota_single_apply .tc S32x16384 32 0 iota_S32x16384_d0_w32 (ix2 k j)
  show FloatOps.sitofp (F := Ideal) .f32 ((IntOp.cmpi .eq (iota .tc S32x16384 32 [0] iota_S32x16384_d0_w32 (ix2 k j))
      (broadcastTo S32x16384 L broadcasts_S1x16384_S32x16384 (ix2 k j))).setWidth 32) = _
  rw [hi, bc_row_apply]
  unfold Cert.Spec.oh
  by_cases h : L (ix2 0 j) = BitVec.ofNat 32 k.val
  · rw [if_pos h, h]
    have e0 : IntOp.cmpi .eq (BitVec.ofNat 32 k.val) (BitVec.ofNat 32 k.val) = 1#1 := by simp [IntOp.cmpi]
    have e1 : ((1#1 : BitVec 1).setWidth 32).toInt = 1 := by decide
    rw [e0]
    show (((((1#1 : BitVec 1).setWidth 32).toInt : ℤ) : ℝ) : EReal) = 1
    rw [e1]; simp
  · rw [if_neg h]
    have h' : ¬ BitVec.ofNat 32 k.val = L (ix2 0 j) := fun e => h e.symm
    have e0 : IntOp.cmpi .eq (BitVec.ofNat 32 k.val) (L (ix2 0 j)) = 0#1 := by
      show BitVec.ofBool (BitVec.ofNat 32 k.val == L (ix2 0 j)) = 0#1
      rw [beq_eq_false_iff_ne.mpr h']; rfl
    have e1 : ((0#1 : BitVec 1).setWidth 32).toInt = 0 := by decide
    rw [e0]
    show (((((0#1 : BitVec 1).setWidth 32).toInt : ℤ) : ℝ) : EReal) = 0
    rw [e1]; simp

/-- The block's payload at (k, j): the hinge of the cut squared distance of row j to mean k, times the weight. -/
theorem pay3_apply (L : Vec Ideal S1x16384 .i32) (X : Vec Ideal S16384x16 .f32) (M : Vec Ideal S32x16 .f32) (k : Fin 32) (j : Fin 16384) :
    (k1_pay3 L X M : FVec Ideal S32x16384 .f32) (ix2 k j)
      = Cert.Spec.hinge (Cert.Spec.sqdK (fun d => X (ix2 j d)) (fun d => M (ix2 k d))) * Cert.Spec.oh k (L (ix2 0 j)) := by
  unfold k1_pay3
  simp only [shapeCast_self, mulf_apply, addf_apply, subf_apply, maximumf_apply, broadcast_apply, sqrt_apply',
    bc_row_apply, bc_col_apply, cross_apply, ones_apply, col_apply]
  rw [weight_apply, coord_sum]
  have h1 : FloatOps.ofBits (F := Ideal) .f32 0x3F800000#32 = (1 : EReal) := Cert.Spec.one_f32
  have h2 : FloatOps.ofBits (F := Ideal) .f32 0x40000000#32 = (2 : EReal) := Cert.Spec.two_f32
  have h0 : FloatOps.ofBits (F := Ideal) .f32 0x00000000#32 = (0 : EReal) := Ideal.ofBits_zero_f32
  simp only [mulf_apply, h1, h2, h0, one_mul]
  rfl

end Index3

section Index4

/-- What a block's body leaves at (0, k, 0): the running entry plus the block's lane sum. -/
theorem pay1_apply (P : FVec Ideal S32x16384 .f32) (R : FVec Ideal S32x1 .f32) (u : Fin 1) (k : Fin 32) (z : Fin 1) :
    (k1_pay1 P R : FVec Ideal S1x32x1 .f32) (ix3 u k z) = R (ix2 k z) + ∑ j : Fin 16384, P (ix2 k j) := by
  unfold k1_pay1
  refine (shapeCast_ab_1ab_apply _ shapeCasts_S32x1_S1x32x1 u k z).trans ?_
  rw [addf_apply, col_apply, lane_sum]

/-- The running 1 × 32 × 1 block viewed 32 × 1. -/
theorem pay4_apply (R : Vec Ideal S1x32x1 .f32) (k : Fin 32) (z : Fin 1) :
    (k1_pay4 R : FVec Ideal S32x1 .f32) (ix2 k z) = R (ix3 0 k z) := by
  unfold k1_pay4
  exact shapeCast_1ab_ab_apply R shapeCasts_S1x32x1_S32x1 k z

/-- The reset block is zero. -/
theorem pay2_apply (u : Fin 1) (k : Fin 32) (z : Fin 1) :
    (k1_pay2 (F := Ideal) : FVec Ideal S1x32x1 .f32) (ix3 u k z) = (0 : EReal) := by
  unfold k1_pay2
  refine (shapeCast_ab_1ab_apply _ shapeCasts_S32x1_S1x32x1 u k z).trans ?_
  exact Ideal.ofBits_zero_f32

end Index4

section Blocks

/-- The blocks the body finds at a point, at their literal types. -/
abbrev xblk (c : Dev nD) (t : Fin cfg1.N) : Vec Ideal S16384x16 .f32 := iblk1 V c 0 t
abbrev lblk (c : Dev nD) (t : Fin cfg1.N) : Vec Ideal S1x16384 .i32 := iblk1 V c 1 t
abbrev mblk (c : Dev nD) (t : Fin cfg1.N) : Vec Ideal S32x16 .f32 := iblk1 V c 2 t

/-- Lane j of point n's block is row 16384 n + j (taken modulo the number of rows, so that it is a row for every n). -/
def rowP (n : ℕ) (j : Fin 16384) : Fin Cert.Spec.NP := ⟨(n * 16384 + j.val) % 2031616, Nat.mod_lt _ (by decide)⟩

/-- The windows' block indices at point t = 62 c + i: the points' and labels' block t, the means' only block, half c's
    output block. -/
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = 0 ∧ win1_1.index t 1 = t.val :=
  (by decide +kernel : ∀ t : Fin grid1.N, win1_1.index t 0 = 0 ∧ win1_1.index t 1 = t.val)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = t.val / 62 ∧ win1_3.index t 1 = 0 ∧ win1_3.index t 2 = 0 :=
  (by decide +kernel : ∀ t : Fin grid1.N, win1_3.index t 0 = t.val / 62 ∧ win1_3.index t 1 = 0 ∧ win1_3.index t 2 = 0)

theorem xblk_apply (c : Dev nD) (t : Fin cfg1.N) (j : Fin 16384) (d : Fin 16) :
    xblk V c t (ix2 j d) = xp V c (rowP t.val j) d := by
  have hi := idx1_0 t
  have hN : t.val < 124 := lt_of_lt_of_eq t.isLt (show cfg1.N = 124 from N_1)
  unfold xblk iblk1 xp
  rw [View.read_apply]
  show V c main_v1 _ = V c main_v1 _
  congr 1
  funext a
  apply Fin.ext
  match a with
  | ⟨0, _⟩ =>
    show win1_0.index t 0 * 16384 + 1 * j.val = (t.val * 16384 + j.val) % 2031616
    rw [hi.1]; have := j.isLt; omega
  | ⟨1, _⟩ =>
    show win1_0.index t 1 * 16 + 1 * d.val = d.val
    rw [hi.2]; omega

theorem lblk_apply (c : Dev nD) (t : Fin cfg1.N) (u : Fin 1) (j : Fin 16384) :
    lblk V c t (ix2 u j) = lp V c (rowP t.val j) := by
  have hi := idx1_1 t
  have hN : t.val < 124 := lt_of_lt_of_eq t.isLt (show cfg1.N = 124 from N_1)
  unfold lblk iblk1 lp
  rw [View.read_apply]
  show V c main_v3 _ = V c main_v3 _
  congr 1
  funext a
  apply Fin.ext
  match a with
  | ⟨0, _⟩ =>
    show win1_1.index t 0 * 1 + 1 * u.val = 0
    rw [hi.1]; omega
  | ⟨1, _⟩ =>
    show win1_1.index t 1 * 16384 + 1 * j.val = (t.val * 16384 + j.val) % 2031616
    rw [hi.2]; have := j.isLt; omega

theorem mblk_apply (c : Dev nD) (t : Fin cfg1.N) (k : Fin 32) (d : Fin 16) :
    mblk V c t (ix2 k d) = mu V c k d := by
  have hi := idx1_2 t
  unfold mblk iblk1 mu
  rw [View.read_apply]
  show V c main_v10 _ = V c main_v10 _
  congr 1
  funext a
  apply Fin.ext
  match a with
  | ⟨0, _⟩ =>
    show win1_2.index t 0 * 32 + 1 * k.val = k.val
    rw [hi.1]; omega
  | ⟨1, _⟩ =>
    show win1_2.index t 1 * 16 + 1 * d.val = d.val
    rw [hi.2]; omega

end Blocks

section Invariant

/-- What point n's block adds to cluster k's entry: the sum over its 16384 rows. -/
def term (c : Dev nD) (k : Fin 32) (n : ℕ) : EReal :=
  ∑ j : Fin 16384, Cert.Spec.hinge (Cert.Spec.sqdK (xp V c (rowP n j)) (mu V c k)) * Cert.Spec.oh k (lp V c (rowP n j))

/-- The lane sum of the payload at point t is that term. -/
theorem lane_term (c : Dev nD) (t : Fin cfg1.N) (k : Fin 32) :
    ∑ j : Fin 16384, (k1_pay3 (lblk V c t) (xblk V c t) (mblk V c t) : FVec Ideal S32x16384 .f32) (ix2 k j) = term V c k t.val := by
  unfold term
  refine Finset.sum_congr rfl fun j _ => ?_
  have hx : (fun d => xblk V c t (ix2 j d)) = xp V c (rowP t.val j) := funext fun d => xblk_apply V c t j d
  have hm : (fun d => mblk V c t (ix2 k d)) = mu V c k := funext fun d => mblk_apply V c t k d
  rw [pay3_apply, hx, hm, lblk_apply]

/-- What the output's staging buffer holds after point n, at its literal type. -/
abbrev acc (c : Dev nD) (n : ℕ) (h : n < cfg1.N) : S1x32x1.Idx → EReal := outsAt1 V c n h

/-- At the first block of a half the entry is that block's term. -/
theorem step_A (c : Dev nD) (t : Fin cfg1.N) (h0 : t.val % 62 = 0) (k : Fin 32) :
    acc V c t.val t.isLt (ix3 0 k 0) = term V c k t.val := by
  unfold acc
  rw [outsAt1_A V c t h0]
  refine (congrFun (out_A (F := Ideal) c (grid1.coords t) (ms1_0 t) (hs1_0 t) (ms1_1 t) (hs1_1 t) (ms1_2 t) (hs1_2 t) (ms1_3 t) (hs1_3 t)
    ((hcond1_0 t).mpr h0) (xblk V c t) (lblk V c t) (mblk V c t)) (ix3 0 k 0)).trans ?_
  rw [pay1_apply, pay4_apply, pay2_apply, zero_add]
  exact lane_term V c t k

/-- At a later block the entry grows by that block's term. -/
theorem step_B (c : Dev nD) (t : Fin cfg1.N) (h0 : ¬t.val % 62 = 0) (k : Fin 32) :
    acc V c t.val t.isLt (ix3 0 k 0)
      = acc V c (t.val - 1) (Nat.lt_of_le_of_lt (Nat.sub_le _ _) t.isLt) (ix3 0 k 0) + term V c k t.val := by
  unfold acc
  rw [outsAt1_B V c t h0]
  refine (congrFun (out_B (F := Ideal) c (grid1.coords t) (ms1_0 t) (hs1_0 t) (ms1_1 t) (hs1_1 t) (ms1_2 t) (hs1_2 t) (ms1_3 t) (hs1_3 t)
    (fun h => h0 ((hcond1_0 t).mp h)) (xblk V c t) (lblk V c t) (mblk V c t)
    (outsAt1 V c (t.val - 1) (Nat.lt_of_le_of_lt (Nat.sub_le _ _) t.isLt))) (ix3 0 k 0)).trans ?_
  rw [pay1_apply, pay4_apply, lane_term]

/-- After point n the entry of cluster k is the sum of the terms of the blocks of n's half up to n. -/
theorem acc_eq (c : Dev nD) (k : Fin 32) : ∀ (n : ℕ) (h : n < cfg1.N),
    acc V c n h (ix3 0 k 0) = ∑ i ∈ Finset.range (n % 62 + 1), term V c k (62 * (n / 62) + i)
  | 0, h => (step_A V c ⟨0, h⟩ (Nat.zero_mod _) k).trans (by simp)
  | n + 1, h => by
    by_cases h0 : (n + 1) % 62 = 0
    · have e := step_A V c ⟨n + 1, h⟩ h0 k
      have hd : 62 * ((n + 1) / 62) + 0 = n + 1 := by omega
      rw [h0, Finset.sum_range_one, hd]
      exact e
    · have e := step_B V c ⟨n + 1, h⟩ h0 k
      have ih := acc_eq c k n (Nat.lt_of_succ_lt h)
      have hm : (n + 1) % 62 = n % 62 + 1 := by omega
      have hq : (n + 1) / 62 = n / 62 := by omega
      have hd : 62 * (n / 62) + (n % 62 + 1) = n + 1 := by omega
      rw [hm, hq, Finset.sum_range_succ, hd, ← ih]
      exact e

end Invariant

section Final

/-- The whole 2 × 32 × 1 array the pass leaves: entry (c', k, ·) is half c'’s hinge sum for cluster k. -/
def G (c : Dev nD) : S2x32x1.Idx → EReal := fun i => Cert.Spec.halfHinge (xp V c) (lp V c) (mu V c) (i 0) (i 1)

/-- The same as contents of the result array. -/
abbrev Garr (c : Dev nD) : Buf (Elt Ideal) ((c : Thread nD τ).loc main_v11) := G V c

/-- A half's sum is the sum of its 62 blocks' terms. -/
theorem half_eq (c : Dev nD) (cc : Fin 2) (k : Fin 32) :
    Cert.Spec.halfHinge (xp V c) (lp V c) (mu V c) cc k = ∑ i ∈ Finset.range 62, term V c k (62 * cc.val + i) := by
  unfold Cert.Spec.halfHinge
  rw [Finset.sum_range]
  refine Finset.sum_congr rfl fun i _ => ?_
  unfold term
  refine Finset.sum_congr rfl fun j _ => ?_
  have hr : rowP (62 * cc.val + i.val) j = Cert.Spec.rowOf cc i j := Fin.ext (by
    show ((62 * cc.val + i.val) * 16384 + j.val) % 2031616 = (62 * cc.val + i.val) * 16384 + j.val
    have := cc.isLt; have := i.isLt; have := j.isLt; omega)
  rw [hr]

/-- The array's entry at an index whose half is q and whose cluster is k. -/
theorem G_apply (c : Dev nD) (i : S2x32x1.Idx) (q : ℕ) (k : Fin 32) (hq : (i 0).val = q) (hk : (i 1).val = k.val) :
    G V c i = ∑ n ∈ Finset.range 62, term V c k (62 * q + n) := by
  have e1 : (i 1 : Fin 32) = k := Fin.ext hk
  refine (half_eq V c (i 0) (i 1)).trans ?_
  refine Finset.sum_congr rfl fun n _ => ?_
  exact congrArg₂ (term V c) e1 (congrArg (fun x => 62 * x + n) hq)

/-- The write-back at the last block of a half writes that half's block of the array. -/
theorem flushed_eq (c : Dev nD) (t : Fin cfg1.N) (hf : (cfg1.win 3).flush t = true) :
    (dat1 V c).flushed 3 t = ((cfg1.win 3).blk t).view.read (Elt Ideal) (Garr V c) := by
  have hN : t.val < 124 := lt_of_lt_of_eq t.isLt (show cfg1.N = 124 from N_1)
  have h61 : t.val % 62 = 61 := (flush1_3 t).mp hf
  have hi := idx1_3 t
  show (cfg1.win 3).cut (grid1.coords t) ((dat1 V c).after 3 t) = _
  rw [after1_3]
  funext y
  rw [View.read_apply]
  show acc V c t.val t.isLt y = G V c _
  obtain ⟨u, k, z, rfl⟩ : ∃ (u : Fin 1) (k : Fin 32) (z : Fin 1), y = ix3 u k z :=
    ⟨y 0, y 1, y 2, eq_ix3 (n0 := 1) (n1 := 32) (n2 := 1) y⟩
  obtain rfl : u = 0 := Fin.ext (by omega)
  obtain rfl : z = 0 := Fin.ext (by omega)
  rw [acc_eq V c k t.val t.isLt, h61]
  refine (G_apply V c _ (t.val / 62) k ?_ ?_).symm
  · show win1_3.index t 0 * 1 + 1 * 0 = t.val / 62
    rw [hi.1]; omega
  · show win1_3.index t 1 * 32 + 1 * k.val = k.val
    rw [hi.2.1]; omega

/-- Every index of the array lies in the block written back at the last block of its half. -/
theorem cover (c : Dev nD) (i : S2x32x1.Idx) :
    ∃ t : Fin cfg1.N, (cfg1.win 3).flush t = true ∧ i ∈ ((cfg1.win 3).blk t).view.set := by
  have h0 : (i 0 : ℕ) < 2 := (i 0).isLt
  have h1 : (i 1 : ℕ) < 32 := (i 1).isLt
  have h2 : (i 2 : ℕ) < 1 := (i 2).isLt
  have hT : 62 * (i 0 : ℕ) + 61 < cfg1.N := by rw [show cfg1.N = 124 from N_1]; omega
  refine ⟨⟨62 * (i 0 : ℕ) + 61, hT⟩, (flush1_3 _).mpr (by show (62 * (i 0 : ℕ) + 61) % 62 = 61; omega), ?_⟩
  have hi := idx1_3 ⟨62 * (i 0 : ℕ) + 61, hT⟩
  show i ∈ ((View.whole main_v11).slice (win1_3.rect ⟨62 * (i 0 : ℕ) + 61, hT⟩)).set
  rw [View.set_slice_whole, Rect.mem_set_unit]
  intro a
  match a with
  | ⟨0, _⟩ =>
    show win1_3.index ⟨62 * (i 0 : ℕ) + 61, hT⟩ 0 * 1 ≤ (i 0 : ℕ) ∧ (i 0 : ℕ) < win1_3.index ⟨62 * (i 0 : ℕ) + 61, hT⟩ 0 * 1 + 1
    rw [hi.1]; show (62 * (i 0 : ℕ) + 61) / 62 * 1 ≤ (i 0 : ℕ) ∧ (i 0 : ℕ) < (62 * (i 0 : ℕ) + 61) / 62 * 1 + 1; omega
  | ⟨1, _⟩ =>
    show win1_3.index ⟨62 * (i 0 : ℕ) + 61, hT⟩ 1 * 32 ≤ (i 1 : ℕ) ∧ (i 1 : ℕ) < win1_3.index ⟨62 * (i 0 : ℕ) + 61, hT⟩ 1 * 32 + 32
    rw [hi.2.1]; omega
  | ⟨2, _⟩ =>
    show win1_3.index ⟨62 * (i 0 : ℕ) + 61, hT⟩ 2 * 1 ≤ (i 2 : ℕ) ∧ (i 2 : ℕ) < win1_3.index ⟨62 * (i 0 : ℕ) + 61, hT⟩ 2 * 1 + 1
    rw [hi.2.2]; omega

/-- So the array ends holding the two halves' sums. -/
theorem final (c : Dev nD) : (dat1 V c).arrAt 3 cfg1.N = Garr V c :=
  (dat1 V c).arrAt_eq_of_cover 3 (Garr V c) (flushed_eq V c) (cover c)

end Final

/-- What the pass leaves in the 2 × 32 × 1 array: entry (c', k, 0) is half c'’s hinge sum for cluster k. -/
theorem hinge_arr (c : Dev nD) (cc : Fin 2) (k : Fin 32) :
    ((dat1 V c).arrAt 3 cfg1.N : S2x32x1.Idx → EReal) (ix3 cc k 0) = Cert.Spec.halfHinge (xp V c) (lp V c) (mu V c) cc k := by
  rw [final V c]
  rfl

end Cert.KernelIdeal.Region1

end
-- ==== Proof.SpecLaws.lean ====
/-
  The padded, blocked, one-hot-weighted sums are the sums over the points themselves; and where every entry is a
  real number the expanded squared distance ‖x‖² − 2 x·μ + ‖μ‖² is ‖x − μ‖² (a sum of squares, so the cut at zero
  does nothing).
-/
import proofs.«424489_j35948876268437_3_alg».proof.Proof.Spec
import Mathlib.Algebra.BigOperators.Fin
import Mathlib.Algebra.BigOperators.Ring.Finset
import Mathlib.Algebra.BigOperators.Group.Finset.Basic
import Mathlib.Algebra.Order.BigOperators.Group.Finset
import Mathlib.Data.Fintype.BigOperators
import Mathlib.Data.Fintype.EquivFin
import Mathlib.Data.Fin.SuccPred
import Mathlib.Data.EReal.Operations

noncomputable section

namespace Cert.Spec

open Idealize.ShloMosaic

/-! ## Re-indexing: the blocks are the padded rows, and the padding contributes nothing -/

/-- Half, block and lane determine the row, and every row arises: 2 · 62 · 16384 = 2,031,616. -/
theorem rowOf_bijective :
    Function.Bijective (fun p : Fin 2 × Fin 62 × Fin 16384 => rowOf p.1 p.2.1 p.2.2) := by
  rw [Fintype.bijective_iff_injective_and_card]
  constructor
  · rintro ⟨c, i, j⟩ ⟨c', i', j'⟩ h
    simp only [rowOf, Fin.mk.injEq] at h
    have hc := c.isLt; have hc' := c'.isLt; have hi := i.isLt; have hi' := i'.isLt
    have hj := j.isLt; have hj' := j'.isLt
    have h1 : c.val = c'.val := by omega
    have h2 : i.val = i'.val := by omega
    have h3 : j.val = j'.val := by omega
    rw [Fin.ext h1, Fin.ext h2, Fin.ext h3]
  · simp [NP]

/-- A sum over halves, blocks and lanes of a function of the row is the sum over the padded rows. -/
theorem sum_rowOf (f : Fin NP → EReal) :
    ∑ c : Fin 2, ∑ i : Fin 62, ∑ j : Fin 16384, f (rowOf c i j) = ∑ n, f n := by
  rw [← Fintype.sum_bijective _ rowOf_bijective (fun p => f (rowOf p.1 p.2.1 p.2.2)) f (fun _ => rfl)]
  rw [Fintype.sum_prod_type]
  refine Finset.sum_congr rfl fun c _ => ?_
  rw [Fintype.sum_prod_type]

theorem NR_le_NP : NR ≤ NP := by decide

/-- A function that vanishes on the padding rows sums, over the padded rows, what it sums over the points. -/
theorem sum_pad (g : Fin NP → EReal) (h : ∀ n : Fin NP, NR ≤ n.val → g n = 0) :
    ∑ n : Fin NP, g n = ∑ n : Fin NR, g (Fin.castLE NR_le_NP n) := by
  symm
  refine Fintype.sum_of_injective (Fin.castLE NR_le_NP) (Fin.castLE_injective _) _ _ ?_ (fun _ => rfl)
  intro n hn
  apply h
  by_contra hlt
  exact hn ⟨⟨n.val, by omega⟩, Fin.ext rfl⟩

/-- The word −1 names no cluster. -/
theorem oh_pad (k : Fin 32) : oh k 4294967295#32 = 0 := by
  unfold oh
  rw [if_neg]
  intro h
  have h2 := congrArg BitVec.toNat h
  have hk := k.isLt
  simp at h2
  omega

theorem padX_point (x : Fin NR → Fin 16 → EReal) (n : Fin NR) : padX x (Fin.castLE NR_le_NP n) = x n := by
  funext d
  unfold padX
  rw [dif_pos (show (Fin.castLE NR_le_NP n).val < NR from n.isLt)]
  rfl

theorem padL_point (l : Fin NR → BitVec 32) (n : Fin NR) : padL l (Fin.castLE NR_le_NP n) = l n := by
  unfold padL
  rw [dif_pos (show (Fin.castLE NR_le_NP n).val < NR from n.isLt)]
  rfl

theorem padL_padding (l : Fin NR → BitVec 32) (n : Fin NP) (h : NR ≤ n.val) : padL l n = 4294967295#32 := by
  unfold padL
  rw [dif_neg (by omega)]

/-- The two halves of the padded rows together sum what the points sum: the 124 blocks of 16384 rows are the 2,031,616
    padded rows once each, and a padding row (zero entries, label −1) contributes nothing. -/
theorem halves_sum (x : Fin NR → Fin 16 → EReal) (l : Fin NR → BitVec 32) (k : Fin 32) (d : Fin 16) :
    ∑ c : Fin 2, halfSum (padX x) (padL l) c k d = sm x l k d := by
  unfold halfSum sm
  rw [sum_rowOf (fun n => oh k (padL l n) * padX x n d), sum_pad]
  · exact Finset.sum_congr rfl fun n _ => by rw [padL_point, padX_point]
  · intro n hn
    rw [padL_padding l n hn, oh_pad, zero_mul]

/-- The same for the counts. -/
theorem halves_cnt (l : Fin NR → BitVec 32) (k : Fin 32) :
    ∑ c : Fin 2, halfCnt (padL l) c k = cnt l k := by
  unfold halfCnt cnt
  rw [sum_rowOf (fun n => oh k (padL l n)), sum_pad]
  · exact Finset.sum_congr rfl fun n _ => by rw [padL_point]
  · intro n hn
    rw [padL_padding l n hn, oh_pad]

/-! ## Finite sums of real numbers are real numbers -/

/-- The coercion of the reals commutes with finite sums. -/
theorem coe_finsum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Where the points and the centres are real numbers, the expanded squared distance is the squared distance. -/
theorem sqdK_eq_sqd (x mu : Fin 16 → EReal) (hx : ∀ d, ∃ r : ℝ, x d = (r : EReal)) (hmu : ∀ d, ∃ r : ℝ, mu d = (r : EReal)) :
    sqdK x mu = sqd x mu := by
  choose a ha using hx
  choose b hb using hmu
  have h2 : (2 : EReal) = ((2 : ℝ) : EReal) := rfl
  have key : (∑ d, a d * a d) - 2 * ∑ d, b d * a d + ∑ d, b d * b d = ∑ d, (a d - b d) * (a d - b d) := by
    rw [Finset.mul_sum, ← Finset.sum_sub_distrib, ← Finset.sum_add_distrib]
    exact Finset.sum_congr rfl fun d _ => by ring
  unfold sqdK sqd
  simp only [ha, hb, h2, ← EReal.coe_mul, ← EReal.coe_sub, coe_finsum, ← EReal.coe_add]
  rw [key, max_eq_left]
  exact EReal.coe_nonneg.mpr (Finset.sum_nonneg fun d _ => mul_self_nonneg _)

/-- The same for the hinge sums, where the points and the centres are real numbers. -/
theorem halves_hinge (x : Fin NR → Fin 16 → EReal) (l : Fin NR → BitVec 32) (mu : Fin 32 → Fin 16 → EReal)
    (hx : ∀ n d, ∃ r : ℝ, x n d = (r : EReal)) (hmu : ∀ k d, ∃ r : ℝ, mu k d = (r : EReal)) (k : Fin 32) :
    ∑ c : Fin 2, halfHinge (padX x) (padL l) mu c k = hs x l mu k := by
  unfold halfHinge hs
  rw [sum_rowOf (fun n => hinge (sqdK (padX x n) (mu k)) * oh k (padL l n)), sum_pad]
  · exact Finset.sum_congr rfl fun n _ => by
      rw [padL_point, padX_point, sqdK_eq_sqd _ _ (hx n) (hmu k), mul_comm]
  · intro n hn
    rw [padL_padding l n hn, oh_pad, mul_zero]

/-- The weight as a real number. -/
def ohR (k : Fin 32) (w : BitVec 32) : ℝ := if w = BitVec.ofNat 32 k.val then 1 else 0

theorem oh_eq_coe (k : Fin 32) (w : BitVec 32) : oh k w = ((ohR k w : ℝ) : EReal) := by
  unfold oh ohR
  split_ifs <;> simp

theorem ohR_nonneg (k : Fin 32) (w : BitVec 32) : 0 ≤ ohR k w := by
  unfold ohR
  split_ifs <;> norm_num

/-- A count is a real number, at least zero. -/
theorem cnt_real (l : Fin NR → BitVec 32) (k : Fin 32) : ∃ r : ℝ, 0 ≤ r ∧ cnt l k = (r : EReal) := by
  refine ⟨∑ n, ohR k (l n), Finset.sum_nonneg fun n _ => ohR_nonneg k (l n), ?_⟩
  unfold cnt
  simp only [oh_eq_coe, coe_finsum]

/-- The means of real points are real numbers. -/
theorem mean_real (x : Fin NR → Fin 16 → EReal) (l : Fin NR → BitVec 32) (hx : ∀ n d, ∃ r : ℝ, x n d = (r : EReal))
    (k : Fin 32) (d : Fin 16) : ∃ r : ℝ, mean x l k d = (r : EReal) := by
  choose a ha using hx
  obtain ⟨c, hc0, hc⟩ := cnt_real l k
  have hs : sm x l k d = ((∑ n, ohR k (l n) * a n d : ℝ) : EReal) := by
    unfold sm
    simp only [oh_eq_coe, ha, ← EReal.coe_mul, coe_finsum]
  have hm : max (cnt l k) 1 = ((max c 1 : ℝ) : EReal) := by
    rw [hc]
    rcases le_total c 1 with h | h
    · rw [max_eq_right h, max_eq_right (by exact_mod_cast h)]; rfl
    · rw [max_eq_left h, max_eq_left (by exact_mod_cast h)]
  have hne : max c 1 ≠ 0 := ne_of_gt (lt_of_lt_of_le one_pos (le_max_right c 1))
  refine ⟨(∑ n, ohR k (l n) * a n d) * (1 / max c 1), ?_⟩
  unfold mean
  rw [hs, hm, Ideal.div_coe hne, ← EReal.coe_mul]

end Cert.Spec

end
-- ==== Proof.KValue.lean ====
/-
  The kernel program's result as a function of its two arguments.  The first pass's halves sum to the per-cluster sums
  and counts of the points themselves (the padding rows weigh nothing), so the means it hands the second pass are the
  cluster means; the second pass's halves then sum, for real points, to the per-cluster hinge sums (the expanded squared
  distance is the squared distance); the host divides by the clamped counts, sums over clusters, divides by 32, and
  applies the shared tail.
-/
import proofs.«424489_j35948876268437_3_alg».proof.Proof.KHost
import proofs.«424489_j35948876268437_3_alg».proof.Proof.KTail
import proofs.«424489_j35948876268437_3_alg».proof.Proof.KRegion0
import proofs.«424489_j35948876268437_3_alg».proof.Proof.KRegion1
import proofs.«424489_j35948876268437_3_alg».proof.Proof.SpecLaws

set_option maxRecDepth 16384

noncomputable section

namespace Cert.KernelIdeal.KValue

open Cert.KernelIdeal Cert.KernelIdeal.Gen Cert.KernelIdeal.KDefs Cert.KernelIdeal.KHost Cert.KernelIdeal.KTail
open Idealize.ShloMosaic Idealize.ShloMosaic.TcCoe Idealize.SL.Sem Idealize.ShloMosaic.ValueIdx

variable (m : (ℓ : Loc nD τ sig) → Buf (Elt Ideal) ℓ) (ρ : Dev nD → PrngReg)

/-- The points and the label words of core `c`, row by row. -/
abbrev X (c : Dev nD) : Fin Cert.Spec.NR → Fin 16 → EReal := Cert.Spec.rows (m ((c : Thread nD τ).loc main_arg0))
abbrev L (c : Dev nD) : Fin Cert.Spec.NR → BitVec 32 := Cert.Spec.labs (m ((c : Thread nD τ).loc main_arg1))

/-- Half `cc` of the first pass's sums is the half sum over the padded points. -/
theorem halfSums_eq (c : Dev nD) (cc : Fin 2) (k : Fin 32) (d : Fin 16) :
    halfSums m ρ c cc k d = Cert.Spec.halfSum (Cert.Spec.padX (X m c)) (Cert.Spec.padL (L m c)) cc k d := by
  unfold halfSums
  rw [sums_exit]
  refine (Cert.KernelIdeal.Region0.sums_arr (V5 m ρ) c cc k d).trans ?_
  rw [xp_entry, lp_entry]

/-- Half `cc` of the first pass's counts is the half count over the padded labels. -/
theorem halfCnts_eq (c : Dev nD) (cc : Fin 2) (k : Fin 32) :
    halfCnts m ρ c cc k = Cert.Spec.halfCnt (Cert.Spec.padL (L m c)) cc k := by
  unfold halfCnts
  rw [cnts_exit]
  refine (Cert.KernelIdeal.Region0.cnts_arr (V5 m ρ) c cc k).trans ?_
  rw [lp_entry]

/-- The means the second pass finds are the cluster means. -/
theorem mu_eq (c : Dev nD) : mu (V7 m ρ) c = Cert.Spec.mean (X m c) (L m c) := by
  funext k d
  rw [mu_second]
  simp only [halfSums_eq, halfCnts_eq]
  rw [Cert.Spec.halves_sum, Cert.Spec.halves_cnt]
  rfl

/-- The clamped count of cluster `k`. -/
theorem safeCnt_eq (c : Dev nD) (k : Fin 32) : safeCnt m ρ c k = max (Cert.Spec.cnt (L m c) k) 1 := by
  rw [safe_second]
  simp only [halfCnts_eq]
  rw [Cert.Spec.halves_cnt]

/-- Half `cc` of the second pass's result is the half hinge sum over the padded points at the cluster means. -/
theorem halfHinges_eq (c : Dev nD) (cc : Fin 2) (k : Fin 32) :
    halfHinges m ρ c cc k
      = Cert.Spec.halfHinge (Cert.Spec.padX (X m c)) (Cert.Spec.padL (L m c)) (Cert.Spec.mean (X m c) (L m c)) cc k := by
  unfold halfHinges
  rw [hinge_exit]
  refine (Cert.KernelIdeal.Region1.hinge_arr (V7 m ρ) c cc k).trans ?_
  rw [xp_second, lp_second, xp_entry, lp_entry, mu_eq]

/-- The means at the second pass's exit, as an array. -/
theorem means_eq (c : Dev nD) :
    (W8 m ρ c (Proc.devRef .tc main_v10) : S32x16.Idx → EReal)
      = Cert.Spec.meanArr (m ((c : Thread nD τ).loc main_arg0)) (m ((c : Thread nD τ).loc main_arg1)) := by
  rw [means_exit]
  funext i
  obtain ⟨k, d, rfl⟩ : ∃ (k : Fin 32) (d : Fin 16), i = ix2 k d := ⟨i 0, i 1, eq_ix2 i⟩
  exact congrFun (congrFun (mu_eq m ρ c) k) d

/-- The variance term, where the points are real numbers. -/
theorem var_eq (c : Dev nD) (hx : ∀ i, ∃ r : ℝ, m ((c : Thread nD τ).loc main_arg0) i = (r : EReal)) :
    varK (F := Ideal) (W8 m ρ c (Proc.devRef .tc main_v11)) (W8 m ρ c (Proc.devRef .tc main_v8))
      = Cert.Spec.varLoss (m ((c : Thread nD τ).loc main_arg0)) (m ((c : Thread nD τ).loc main_arg1)) := by
  funext i
  rw [varK_apply]
  unfold Cert.Spec.varLoss
  refine congrArg (fun s => Ideal.div s _) (Finset.sum_congr rfl fun k _ => ?_)
  have hs : (∑ cc : Fin 2, halfHinges m ρ c cc k)
      = Cert.Spec.hs (X m c) (L m c) (Cert.Spec.mean (X m c) (L m c)) k := by
    have e : ∀ cc : Fin 2, halfHinges m ρ c cc k
        = Cert.Spec.halfHinge (Cert.Spec.padX (X m c)) (Cert.Spec.padL (L m c)) (Cert.Spec.mean (X m c) (L m c)) cc k :=
      fun cc => halfHinges_eq m ρ c cc k
    simp only [e]
    exact Cert.Spec.halves_hinge (X m c) (L m c) _ (fun n d => hx (ix2 n d))
      (fun k d => Cert.Spec.mean_real (X m c) (L m c) (fun n d => hx (ix2 n d)) k d) k
  have hc : (W8 m ρ c (Proc.devRef .tc main_v8) : S32x1.Idx → EReal) (ix2 k 0) = max (Cert.Spec.cnt (L m c) k) 1 := by
    rw [safe_exit]
    exact safeCnt_eq m ρ c k
  show Ideal.div (∑ cc : Fin 2, halfHinges m ρ c cc k) ((W8 m ρ c (Proc.devRef .tc main_v8) : S32x1.Idx → EReal) (ix2 k 0)) = _
  rw [hs, hc]

/-- The result buffer at the end of the kernel program's run, where the points are real numbers. -/
theorem kernel_value (c : Dev nD) (hx : ∀ i, ∃ r : ℝ, m ((c : Thread nD τ).loc main_arg0) i = (r : EReal)) :
    (W13 m ρ c (Proc.devRef .tc main_v47) : S_.Idx → EReal)
      = Cert.KernelIdeal.Tail.tail (F := Ideal)
          (Cert.Spec.meanArr (m ((c : Thread nD τ).loc main_arg0)) (m ((c : Thread nD τ).loc main_arg1)))
          (Cert.Spec.varLoss (m ((c : Thread nD τ).loc main_arg0)) (m ((c : Thread nD τ).loc main_arg1))) := by
  rw [tail_read (F := Ideal) m ρ c, means_eq, var_eq m ρ c hx]

end Cert.KernelIdeal.KValue

end
-- ==== Proof.RefIndex.lean ====
/-
  The reference's three data-dependent operations read at an index.  Its accumulating scatter adds, to entry k of a
  32-row operand, every update row n whose index word is k (an index outside 0..31 lands nowhere): the operand plus the
  sum over all rows of weight · update, the weight one or zero.  Its gather of a row of the 32 × 16 table at an index
  word that is k reads row k.
-/
import proofs.«424489_j35948876268437_3_alg».proof.Proof.Spec
import proofs.«424489_j35948876268437_3_alg».proof.Proof.Gen.ReferenceIdeal
import Idealize.ShloMosaic.Lib.ValueIdx
import Idealize.ShloMosaic.PureOps.Ideal.Laws

set_option maxRecDepth 16384

noncomputable section

namespace Cert.ReferenceIdeal.RefIndex

open Cert.ReferenceIdeal Cert.ReferenceIdeal.Gen
open Idealize.ShloMosaic Idealize.ShloMosaic.ValueIdx

local notation "dV" => scatter_S32_S2000000x1_S2000000_n_0_0_1
local notation "dR" => scatter_S32x16_S2000000x1_S2000000x16_1_0_0_1
local notation "dG" => gather_S32x16_S2000000x1_S2000000x16_1_0_n_n_0_1_116

/-! ## The index word of a cluster -/

/-- The word of a cluster number below 32, read signed, is that number. -/
theorem toInt_word (k : Fin 32) : (BitVec.ofNat 32 k.val).toInt = (k.val : Int) := by
  have hk := k.isLt
  rw [BitVec.toInt_eq_toNat_cond, BitVec.toNat_ofNat]
  split <;> omega

/-- A word is the word of cluster k exactly when its signed reading is k. -/
theorem word_eq_iff (w : BitVec 32) (k : Fin 32) : w = BitVec.ofNat 32 k.val ↔ w.toInt = (k.val : Int) := by
  constructor
  · rintro rfl; exact toInt_word k
  · intro h; exact BitVec.eq_of_toInt_eq (h.trans (toInt_word k).symm)

/-! ## The vector scatter's landing index -/

/-- Update n of the vector scatter reads its start index at row n of the index column. -/
theorem dV_siIdx (n : Fin 2000000) (c : Fin (dV).scatterDimsToOperandDims.length) :
    (dV).siIdx (ix1 n) c = ix2 n 0 := by
  funext b
  refine Fin.ext ?_
  match b with
  | ⟨0, _⟩ => rfl
  | ⟨1, _⟩ =>
    show c.val = 0
    have := c.isLt
    have h : (dV).scatterDimsToOperandDims.length = 1 := rfl
    omega

/-- The window of update n starts at the signed reading of row n's index word. -/
theorem dV_start (n : Fin 2000000) (idx : IVec S2000000x1 32) (a : Fin S32.rank) :
    (dV).start (ix1 n) idx a = (idx (ix2 n 0)).toInt := by
  obtain rfl : a = 0 := Subsingleton.elim _ _
  unfold ScatterDims.start
  rw [dif_pos (show (0 : Fin 1) ∈ (dV).scatterDimsToOperandDims from List.mem_singleton.mpr rfl), dV_siIdx]

/-- The one operand axis is inserted: the window coordinate on it is zero. -/
theorem dV_window (n : Fin 2000000) (a : Fin S32.rank) : (dV).window (ix1 n) a = 0 := by
  obtain rfl : a = 0 := Subsingleton.elim _ _
  unfold ScatterDims.window
  rw [dif_neg (by decide)]

/-- Update n lands on entry k exactly when the signed reading of its index word is k. -/
theorem dV_result (n : Fin 2000000) (idx : IVec S2000000x1 32) (k : Fin 32) :
    (dV).resultIdx? (ix1 n) idx = some (ix1 k) ↔ (idx (ix2 n 0)).toInt = (k.val : Int) := by
  have hk := k.isLt
  unfold ScatterDims.resultIdx?
  constructor
  · intro h
    split at h
    · rename_i hc
      have h0 := congrArg Fin.val (congrFun (Option.some.inj h) 0)
      have h1 := hc 0
      rw [dV_start, dV_window] at h1
      simp only [dV_start, dV_window] at h0
      change ((idx (ix2 n 0)).toInt + ((0:Nat):Int)).toNat = k.val at h0
      omega
    · exact absurd h (by simp)
  · intro h
    have hc : ∀ a, 0 ≤ (dV).start (ix1 n) idx a + (dV).window (ix1 n) a ∧
        (dV).start (ix1 n) idx a + (dV).window (ix1 n) a < S32.size a := by
      intro a
      obtain rfl : a = 0 := Subsingleton.elim _ _
      rw [dV_start, dV_window, h]
      show _ ∧ _ < ((32:Nat):Int)
      omega
    rw [dif_pos hc]
    congr 1
    funext a
    obtain rfl : a = 0 := Subsingleton.elim _ _
    refine Fin.ext ?_
    show ((dV).start (ix1 n) idx 0 + (dV).window (ix1 n) 0).toNat = k.val
    rw [dV_start, dV_window, h]; omega

/-! ## The row scatter's landing index -/

/-- Update (n, d') of the row scatter reads its start index at row n of the index column. -/
theorem dR_siIdx (n : Fin 2000000) (d' : Fin 16) (c : Fin (dR).scatterDimsToOperandDims.length) :
    (dR).siIdx (ix2 n d') c = ix2 n 0 := by
  funext b
  refine Fin.ext ?_
  match b with
  | ⟨0, _⟩ => rfl
  | ⟨1, _⟩ =>
    show c.val = 0
    have := c.isLt
    have h : (dR).scatterDimsToOperandDims.length = 1 := rfl
    omega

/-- On the row axis the window starts at the signed reading of row n's index word … -/
theorem dR_start0 (n : Fin 2000000) (d' : Fin 16) (idx : IVec S2000000x1 32) :
    (dR).start (ix2 n d') idx (0 : Fin 2) = (idx (ix2 n 0)).toInt := by
  unfold ScatterDims.start
  rw [dif_pos (show (0 : Fin 2) ∈ (dR).scatterDimsToOperandDims from List.mem_singleton.mpr rfl), dR_siIdx]

/-- … and on the column axis, which no start index names, at zero. -/
theorem dR_start1 (n : Fin 2000000) (d' : Fin 16) (idx : IVec S2000000x1 32) :
    (dR).start (ix2 n d') idx (1 : Fin 2) = 0 := by
  unfold ScatterDims.start
  rw [dif_neg (by decide)]

/-- The row axis is inserted: the window coordinate on it is zero … -/
theorem dR_window0 (n : Fin 2000000) (d' : Fin 16) : (dR).window (ix2 n d') (0 : Fin 2) = 0 := by
  unfold ScatterDims.window
  rw [dif_neg (by decide)]

/-- … and on the column axis it is the update's column. -/
theorem dR_window1 (n : Fin 2000000) (d' : Fin 16) : (dR).window (ix2 n d') (1 : Fin 2) = d'.val := by
  unfold ScatterDims.window
  rw [dif_pos (by decide)]
  rfl

/-- Update (n, d') lands on entry (k, d) exactly when the signed reading of row n's index word is k and d' = d. -/
theorem dR_result (n : Fin 2000000) (d' : Fin 16) (idx : IVec S2000000x1 32) (k : Fin 32) (d : Fin 16) :
    (dR).resultIdx? (ix2 n d') idx = some (ix2 k d) ↔ ((idx (ix2 n 0)).toInt = (k.val : Int) ∧ d' = d) := by
  have hk := k.isLt
  have hd := d.isLt
  have hd' := d'.isLt
  unfold ScatterDims.resultIdx?
  constructor
  · intro h
    split at h
    · rename_i hc
      have e := Option.some.inj h
      have h0 := congrArg Fin.val (congrFun e 0)
      have h1 := congrArg Fin.val (congrFun e 1)
      have c0 := (hc 0).1
      rw [dR_start0, dR_window0] at c0
      simp only [dR_start0, dR_window0] at h0
      simp only [dR_start1, dR_window1] at h1
      change ((idx (ix2 n 0)).toInt + ((0:Nat):Int)).toNat = k.val at h0
      change ((0:Int) + ((d'.val:Nat):Int)).toNat = d.val at h1
      refine ⟨by omega, Fin.ext (by omega)⟩
    · exact absurd h (by simp)
  · rintro ⟨h, rfl⟩
    have hc : ∀ a, 0 ≤ (dR).start (ix2 n d') idx a + (dR).window (ix2 n d') a ∧
        (dR).start (ix2 n d') idx a + (dR).window (ix2 n d') a < S32x16.size a := by
      intro a
      match a with
      | ⟨0, _⟩ =>
        show 0 ≤ (dR).start (ix2 n d') idx 0 + (dR).window (ix2 n d') 0 ∧
          (dR).start (ix2 n d') idx 0 + (dR).window (ix2 n d') 0 < ((32:Nat):Int)
        rw [dR_start0, dR_window0, h]; omega
      | ⟨1, _⟩ =>
        show 0 ≤ (dR).start (ix2 n d') idx 1 + (dR).window (ix2 n d') 1 ∧
          (dR).start (ix2 n d') idx 1 + (dR).window (ix2 n d') 1 < ((16:Nat):Int)
        rw [dR_start1, dR_window1]; omega
    rw [dif_pos hc]
    congr 1
    funext a
    refine Fin.ext ?_
    match a with
    | ⟨0, _⟩ =>
      show ((dR).start (ix2 n d') idx 0 + (dR).window (ix2 n d') 0).toNat = k.val
      rw [dR_start0, dR_window0, h]; omega
    | ⟨1, _⟩ =>
      show ((dR).start (ix2 n d') idx 1 + (dR).window (ix2 n d') 1).toNat = d'.val
      rw [dR_start1, dR_window1]; omega

/-! ## The weight of a row -/

/-- Weight times update: the update where the signed word is k, zero elsewhere. -/
theorem oh_mul (k : Fin 32) (w : BitVec 32) (v : EReal) :
    Cert.Spec.oh k w * v = if w.toInt = (k.val : Int) then v else 0 := by
  unfold Cert.Spec.oh
  by_cases h : w = BitVec.ofNat 32 k.val
  · rw [if_pos h, if_pos ((word_eq_iff w k).1 h), one_mul]
  · rw [if_neg h, if_neg (fun h' => h ((word_eq_iff w k).2 h')), zero_mul]

/-- A rank-1 index set is its coordinate's range. -/
def idxEquiv1 {n : Nat} : Fin n ≃ (⟨1, ![n]⟩ : Shape).Idx where
  toFun a := ix1 a
  invFun j := j 0
  left_inv _ := rfl
  right_inv j := (eq_ix1 j).symm

/-! ## The three readings -/

/-- The scatter of a vector of updates into 32 entries. -/
theorem scatter_vec (x0 : FVec Ideal S32 .f32) (idx : IVec S2000000x1 32) (u : FVec Ideal S2000000 .f32) (k : Fin 32) :
    Host.scatterAdd (F := Ideal) scatter_S32_S2000000x1_S2000000_n_0_0_1 x0 idx u (ix1 k)
      = x0 (ix1 k) + ∑ n : Fin 2000000, Cert.Spec.oh k (idx (ix2 n 0)) * u (ix1 n) := by
  unfold Host.scatterAdd
  rw [Ideal.hostScatterAdd_def]
  unfold Ideal.hostScatterAdd
  rw [Finset.sum_filter]
  refine congrArg (fun t => x0 (ix1 k) + t) ?_
  refine (Fintype.sum_equiv idxEquiv1 _ _ (fun n => ?_)).symm
  show _ = if (dV).resultIdx? (ix1 n) idx = some (ix1 k) then u (ix1 n) else 0
  rw [oh_mul]
  simp only [dV_result]

/-- The scatter of rows of 16 into a 32 × 16 array. -/
theorem scatter_rows (x0 : FVec Ideal S32x16 .f32) (idx : IVec S2000000x1 32) (u : FVec Ideal S2000000x16 .f32)
    (k : Fin 32) (d : Fin 16) :
    Host.scatterAdd (F := Ideal) scatter_S32x16_S2000000x1_S2000000x16_1_0_0_1 x0 idx u (ix2 k d)
      = x0 (ix2 k d) + ∑ n : Fin 2000000, Cert.Spec.oh k (idx (ix2 n 0)) * u (ix2 n d) := by
  unfold Host.scatterAdd
  rw [Ideal.hostScatterAdd_def]
  unfold Ideal.hostScatterAdd
  rw [Finset.sum_filter, sum_idx2]
  refine congrArg (fun t => x0 (ix2 k d) + t) ?_
  refine Finset.sum_congr rfl (fun n _ => ?_)
  rw [oh_mul]
  simp only [dR_result]
  by_cases h : (idx (ix2 n 0)).toInt = (k.val : Int)
  · simp only [h, true_and, if_true]
    rw [Finset.sum_ite_eq' Finset.univ d (fun d' => u (ix2 n d')), if_pos (Finset.mem_univ d)]
  · simp only [h, false_and, if_false, Finset.sum_const_zero]

/-- The gather of table rows: where row n's index word is k, it reads row k of the table. -/
theorem gather_rows {α : Type} (M : S32x16.Idx → α) (idx : IVec S2000000x1 32) (n : Fin 2000000) (d : Fin 16) (k : Fin 32)
    (h : idx (ix2 n 0) = BitVec.ofNat 32 k.val) :
    Host.gather gather_S32x16_S2000000x1_S2000000x16_1_0_n_n_0_1_116 M idx (ix2 n d) = M (ix2 k d) := by
  have hk := k.isLt
  unfold Host.gather
  congr 1
  funext a
  refine Fin.ext ?_
  match a with
  | ⟨0, _⟩ =>
    show (dG).start (ix2 n d) idx 0 + (dG).batchCoord (ix2 n d) 0 + (dG).offCoord (ix2 n d) 0 = k.val
    rw [GatherDims.batchCoord_eq_zero _ _ _ List.not_mem_nil,
      GatherDims.offCoord_eq_zero _ _ _ (by decide)]
    unfold GatherDims.start
    rw [dif_pos (show (0 : Fin 2) ∈ (dG).startIndexMap from List.mem_singleton.mpr rfl)]
    have hsi : (dG).siIdx (ix2 n d) ⟨List.idxOf (0 : Fin 2) (dG).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, h, toInt_word]
    show min ((k.val : Int)).toNat (32 - 1) + 0 + 0 = k.val
    omega
  | ⟨1, _⟩ =>
    show (dG).start (ix2 n d) idx 1 + (dG).batchCoord (ix2 n d) 1 + (dG).offCoord (ix2 n d) 1 = d.val
    rw [GatherDims.batchCoord_eq_zero _ _ _ List.not_mem_nil]
    unfold GatherDims.start GatherDims.offCoord
    rw [dif_neg (by decide), dif_pos (by decide)]
    show 0 + 0 + d.val = d.val
    omega

end Cert.ReferenceIdeal.RefIndex

end
-- ==== Proof.RefValue.lean ====
/-
  The reference program's result as a function of its two arguments: the shared tail of the cluster means and of the
  variance term, the means being the per-cluster sums over max (count) 1 (its three scatters are sums of
  weight · update over all rows), and the variance term the per-cluster hinge sums over max (count) 1, summed, over 32 —
  a row's hinge being taken at the mean its own label names, which for a row counted in cluster k is μ_k.
-/
import proofs.«424489_j35948876268437_3_alg».proof.Proof.Spec
import proofs.«424489_j35948876268437_3_alg».proof.Proof.Tail
import proofs.«424489_j35948876268437_3_alg».proof.Proof.RefIndex
import proofs.«424489_j35948876268437_3_alg».proof.Proof.Gen.ReferenceIdeal.Run
import proofs.«424489_j35948876268437_3_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable (x : (⟨S2000000x16, .f32⟩ : BufTy).Contents (Elt Ideal)) (y : (⟨S2000000x1, .i32⟩ : BufTy).Contents (Elt Ideal))

/-- The last thirty-odd operations are the shared tail of the means (stage 14) and the variance term (stage 36). -/
theorem ref_tail : val_main_v68 (F := Ideal) x y
    = Cert.KernelIdeal.Tail.tail (F := Ideal) (val_main_v14 (F := Ideal) x y) (val_main_v36 (F := Ideal) x y) := by
  unfold val_main_v68 val_main_v67 val_main_v66 val_main_v65 val_main_v64 val_main_v63 val_main_v62 val_main_v61 val_main_v60
    val_main_v59 val_main_v58 val_main_v57 val_main_v56 val_main_v55 val_main_v54 val_main_v53 val_main_v52 val_main_v51
    val_main_v50 val_main_v49 val_main_v48 val_main_v47 val_main_v46 val_main_v45 val_main_v44 val_main_v43 val_main_v42
    val_main_v41 val_main_v40 val_main_v39 val_main_v38 val_main_v37
    val_main_call0_v1 val_main_call0_v0 val_main_call1_v1 val_main_call1_v0
    val_main_cst_10 val_main_cst_12 val_main_cst_13 val_main_cst_14 val_main_cst_15 val_main_cst_16 val_main_cst_17
    val_main_cst_18 val_main_cst_19 val_main_cst_20 val_main_cst_21 val_main_cst_22 val_main_cst_23 val_main_c_11
  unfold Cert.KernelIdeal.Tail.tail Cert.KernelIdeal.Tail.regLoss Cert.KernelIdeal.Tail.distLoss Cert.KernelIdeal.Tail.pairHinge
    Cert.KernelIdeal.Tail.pairSq Cert.KernelIdeal.Tail.diag
  generalize val_main_v14 (F := Ideal) x y = mu
  generalize val_main_v36 (F := Ideal) x y = v
  rfl

/-! ## The label operand of the scatters, the counts, and the means -/

/-- The index operand of the first scatter at row n is row n's label word. -/
theorem lab_v5 (n : Fin 2000000) : val_main_v5 (F := Ideal) y (ix2 n 0) = y (ix2 n 0) := by
  rw [val_main_v5_apply, val_main_v0_apply]
  refine congrArg y (funext fun a => ?_)
  match a with
  | ⟨0, _⟩ => exact Fin.ext (Nat.div_one _)
  | ⟨1, _⟩ => rfl

/-- So is the second scatter's … -/
theorem lab_v10 (n : Fin 2000000) : val_main_v10 (F := Ideal) y (ix2 n 0) = y (ix2 n 0) := lab_v5 y n

/-- … and the third's. -/
theorem lab_v32 (n : Fin 2000000) : val_main_v32 (F := Ideal) y (ix2 n 0) = y (ix2 n 0) := lab_v5 y n

/-- The scatter of ones into zeros counts the rows of each cluster. -/
theorem cnt_v6 (k : Fin 32) : val_main_v6 (F := Ideal) y (ix1 k) = Cert.Spec.cnt (Cert.Spec.labs y) k := by
  unfold val_main_v6
  rw [RefIndex.scatter_vec, val_main_v4_apply, val_main_cst_0_apply, Ideal.ofBits_def, Ideal.ofBits_zero_f32, zero_add]
  unfold Cert.Spec.cnt Cert.Spec.labs
  refine Finset.sum_congr rfl fun n _ => ?_
  rw [val_main_v3_apply, val_main_cst_apply, Ideal.ofBits_def, Cert.Spec.one_f32, mul_one, lab_v5]

/-- The divisor: max (count) 1. -/
theorem safe_v8 (k : Fin 32) : val_main_v8 (F := Ideal) y (ix1 k) = max (Cert.Spec.cnt (Cert.Spec.labs y) k) 1 := by
  rw [val_main_v8_apply, Ideal.maximumf_def, cnt_v6, val_main_v7_apply, val_main_cst_1_apply, Ideal.ofBits_def,
    Cert.Spec.one_f32]

/-- The scatter of the rows into zeros sums the rows of each cluster, coordinate by coordinate. -/
theorem sum_v11 (k : Fin 32) (d : Fin 16) :
    val_main_v11 (F := Ideal) x y (ix2 k d) = Cert.Spec.sm (Cert.Spec.rows x) (Cert.Spec.labs y) k d := by
  unfold val_main_v11
  rw [RefIndex.scatter_rows, val_main_v9_apply, val_main_cst_2_apply, Ideal.ofBits_def, Ideal.ofBits_zero_f32, zero_add]
  unfold Cert.Spec.sm Cert.Spec.labs Cert.Spec.rows
  refine Finset.sum_congr rfl fun n _ => ?_
  rw [lab_v10]

/-- The divisor broadcast along the 16 coordinates. -/
theorem safe_v13 (k : Fin 32) (d : Fin 16) :
    val_main_v13 (F := Ideal) y (ix2 k d) = max (Cert.Spec.cnt (Cert.Spec.labs y) k) 1 := by
  rw [val_main_v13_apply, val_main_v12_apply]
  have h : idx_main_v12 (idx_main_v13 (ix2 k d)) = ix1 k := funext fun a => match a with | ⟨0, _⟩ => rfl
  rw [h, safe_v8]

/-- Stage 14 at cluster k, coordinate d, is the mean. -/
theorem mean_v14 (k : Fin 32) (d : Fin 16) :
    val_main_v14 (F := Ideal) x y (ix2 k d) = Cert.Spec.mean (Cert.Spec.rows x) (Cert.Spec.labs y) k d := by
  rw [val_main_v14_apply, Ideal.hostDivf_def, sum_v11, safe_v13]
  rfl

/-- Stage 14 is the array of cluster means. -/
theorem ref_means : val_main_v14 (F := Ideal) x y = Cert.Spec.meanArr x y := by
  funext i
  obtain ⟨k, d, rfl⟩ : ∃ k d, i = ix2 k d := ⟨i 0, i 1, eq_ix2 i⟩
  rw [mean_v14]
  rfl

/-! ## The variance term -/

/-- A word that names one of the 32 clusters is not negative as a signed integer. -/
theorem slt_zero (k : Fin 32) : IntOp.cmpi .slt (BitVec.ofNat 32 k.val) 0#32 = 0#1 := by
  revert k; decide

/-- Where row n's label word names cluster k, its normalised index word (a negative word plus 32, any other word
    itself) is the word itself. -/
theorem norm_v20 (n : Fin 2000000) (k : Fin 32) (h : y (ix2 n 0) = BitVec.ofNat 32 k.val) :
    val_main_v20 (F := Ideal) y (ix2 n 0) = BitVec.ofNat 32 k.val := by
  have h0 : val_main_v0 (F := Ideal) y (idx_main_v20 (ix2 n 0)) = BitVec.ofNat 32 k.val := by
    rw [val_main_v0_apply, ← h]
    refine congrArg y (funext fun a => ?_)
    match a with
    | ⟨0, _⟩ => exact Fin.ext (Nat.div_one _)
    | ⟨1, _⟩ => rfl
  rw [val_main_v20_apply, val_main_v19_apply, val_main_v16_apply, h0, val_main_v15_apply, val_main_c_apply, slt_zero,
    select_zero]

/-- So the gather reads, for such a row, the mean of cluster k. -/
theorem gath_v21 (n : Fin 2000000) (d : Fin 16) (k : Fin 32) (h : y (ix2 n 0) = BitVec.ofNat 32 k.val) :
    val_main_v21 (F := Ideal) x y (ix2 n d) = Cert.Spec.mean (Cert.Spec.rows x) (Cert.Spec.labs y) k d := by
  unfold val_main_v21
  rw [RefIndex.gather_rows _ _ n d k (norm_v20 y n k h), mean_v14]

/-- The squared distance of such a row to the mean of cluster k. -/
theorem sq_v24 (n : Fin 2000000) (k : Fin 32) (h : y (ix2 n 0) = BitVec.ofNat 32 k.val) :
    val_main_v24 (F := Ideal) x y (ix1 n)
      = Cert.Spec.sqd (Cert.Spec.rows x n) (Cert.Spec.mean (Cert.Spec.rows x) (Cert.Spec.labs y) k) := by
  rw [val_main_v24_apply, val_main_cst_4_apply, Ideal.ofBits_def, Ideal.ofBits_zero_f32, zero_add]
  unfold Cert.Spec.sqd
  refine Finset.sum_congr rfl fun d _ => ?_
  have hi : idx_main_v24 (ix1 n) d = ix2 n d := funext fun a => match a with | ⟨0, _⟩ => rfl | ⟨1, _⟩ => rfl
  rw [hi, val_main_v23_apply, val_main_v22_apply, Ideal.mulf_def, Ideal.subf_def, gath_v21 x y n d k h]
  rfl

/-- The hinge of such a row. -/
theorem hinge_v30 (n : Fin 2000000) (k : Fin 32) (h : y (ix2 n 0) = BitVec.ofNat 32 k.val) :
    val_main_v30 (F := Ideal) x y (ix1 n)
      = Cert.Spec.hinge (Cert.Spec.sqd (Cert.Spec.rows x n) (Cert.Spec.mean (Cert.Spec.rows x) (Cert.Spec.labs y) k)) := by
  rw [val_main_v30_apply, val_main_v29_apply, val_main_v27_apply, val_main_v25_apply, val_main_v28_apply,
    val_main_cst_6_apply, val_main_v26_apply, val_main_cst_5_apply, sq_v24 x y n k h, Ideal.mulf_def, Ideal.maximumf_def,
    Ideal.subf_def, Ideal.hostUnary_sqrt_def, Ideal.ofBits_def, Ideal.ofBits_def, Ideal.ofBits_zero_f32, Cert.Spec.one_f32]
  rfl

/-- The scatter of the hinges into zeros sums, for each cluster, the hinges of its rows at its own mean: a row of another
    cluster, or of none, has weight zero. -/
theorem hs_v33 (k : Fin 32) :
    val_main_v33 (F := Ideal) x y (ix1 k)
      = Cert.Spec.hs (Cert.Spec.rows x) (Cert.Spec.labs y) (Cert.Spec.mean (Cert.Spec.rows x) (Cert.Spec.labs y)) k := by
  unfold val_main_v33
  rw [RefIndex.scatter_vec, val_main_v31_apply, val_main_cst_7_apply, Ideal.ofBits_def, Ideal.ofBits_zero_f32, zero_add]
  unfold Cert.Spec.hs
  refine Finset.sum_congr rfl fun n _ => ?_
  rw [lab_v32]
  show Cert.Spec.oh k (y (ix2 n 0)) * _ = Cert.Spec.oh k (y (ix2 n 0)) * _
  by_cases h : y (ix2 n 0) = BitVec.ofNat 32 k.val
  · rw [hinge_v30 x y n k h]
  · have hz : Cert.Spec.oh k (y (ix2 n 0)) = 0 := if_neg h
    rw [hz, zero_mul, zero_mul]

/-- Each cluster's hinge sum over its divisor. -/
theorem pc_v34 (k : Fin 32) :
    val_main_v34 (F := Ideal) x y (ix1 k)
      = Ideal.div (Cert.Spec.hs (Cert.Spec.rows x) (Cert.Spec.labs y) (Cert.Spec.mean (Cert.Spec.rows x) (Cert.Spec.labs y)) k)
          (max (Cert.Spec.cnt (Cert.Spec.labs y) k) 1) := by
  rw [val_main_v34_apply, Ideal.hostDivf_def, hs_v33, safe_v8]

/-- The sum of stage 34 over its 32 entries. -/
theorem sum_v34 :
    ∑ j : S32.Idx, val_main_v34 (F := Ideal) x y j
      = ∑ k : Fin 32, Ideal.div
          (Cert.Spec.hs (Cert.Spec.rows x) (Cert.Spec.labs y) (Cert.Spec.mean (Cert.Spec.rows x) (Cert.Spec.labs y)) k)
          (max (Cert.Spec.cnt (Cert.Spec.labs y) k) 1) := by
  refine Fintype.sum_equiv ⟨fun j => j 0, fun a => ix1 a, fun j => (eq_ix1 j).symm, fun _ => rfl⟩ _ _ (fun j => ?_)
  obtain ⟨k, rfl⟩ : ∃ k, j = ix1 k := ⟨j 0, eq_ix1 j⟩
  exact pc_v34 x y k

/-- Stage 36 is the variance term. -/
theorem ref_var : val_main_v36 (F := Ideal) x y = Cert.Spec.varLoss x y := by
  funext i
  rw [val_main_v36_apply, Ideal.hostDivf_def, val_main_v35_apply, val_main_cst_8_apply, val_main_cst_9_apply,
    Ideal.ofBits_def, Ideal.ofBits_def, Ideal.ofBits_zero_f32, zero_add, sum_v34]
  unfold Cert.Spec.varLoss
  rfl

/-- The reference's result. -/
theorem ref_value : val_main_v68 (F := Ideal) x y
    = Cert.KernelIdeal.Tail.tail (F := Ideal) (Cert.Spec.meanArr x y) (Cert.Spec.varLoss x y) := by
  rw [ref_tail, ref_means, ref_var]

end Cert.ReferenceIdeal.RefValue

end
-- ==== Proof.Finite.lean ====
/-
  The precondition says every point coordinate has absolute value below +∞; at the ideal instance, where a coordinate
  ranges over the extended reals, that makes it a real number.
-/
import proofs.«424489_j35948876268437_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

/-- Where the precondition holds, every coordinate of every point is a real number. -/
theorem real_of_pre (x : FVec Ideal Cert.Pre_finite_inputs.S2000000x16 .f32) (y : IVec Cert.Pre_finite_inputs.S2000000x1 32)
    (h : Cert.Pre_finite_inputs.fn (F := Ideal) x y = fun _ => 1#1) : ∀ i, ∃ r : ℝ, x i = (r : EReal) := by
  intro i
  haveI : Subsingleton Cert.Pre_finite_inputs.S_.Idx := ⟨fun a b => funext fun d => d.elim0⟩
  have h0 := congrFun h ValueIdx.ix0
  dsimp only [Cert.Pre_finite_inputs.fn] at h0
  -- the conjunction over all entries is 1, so the entry at i is 1
  have hi := Host.reduce_andi_all _ _ _ _ _ h0 i
  -- that entry is the comparison |x i| < +∞, the absolute value being max (x i) (−x i)
  have hc : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hc
  have hlt : max (x i) (-(x i)) < (⊤ : EReal) := by
    by_contra hn
    simp [Ideal.cmp, hn] at hc
  -- of the three kinds of extended real, −∞ and +∞ have max a (−a) = +∞; what is left is a real
  generalize x i = a at hlt
  induction a using EReal.rec with
  | bot => exact absurd hlt (by simp)
  | top => exact absurd hlt (by simp)
  | coe r => exact ⟨r, rfl⟩

end Cert.Finite

end
-- ==== Proof.lean ====
/-
  A clustering loss over 2,000,000 labelled points in 16 dimensions with 32 clusters: the loss is
    (Σ_k (Σ_{n in k} (max (‖x_n − μ_k‖ − 1) 0)²) / max (count_k) 1) / 32
      + (Σ_{i ≠ j} (max (3 − ‖μ_i − μ_j‖) 0)²) / 992 + 0.001 · (Σ_k ‖μ_k‖) / 32,
  μ_k the mean of the points labelled k.  The reference computes it with scatters and a gather over the points.  The
  kernel pads the points to 2 · 62 · 16384 rows, accumulates per-cluster sums, counts and hinge sums block by block in
  two passes with one-hot weights (a label outside 0..31, the padding's −1 included, weighs nothing), the squared
  distance expanded as ‖x‖² − 2 x·μ + ‖μ‖² and cut at zero, and finishes on the host with the same last operations.

  Over the extended reals with every point coordinate a real number the two agree: the blocked, weighted sums are the
  sums over the points of each cluster; the expanded squared distance is the squared distance, a sum of squares, so the
  cut does nothing; and from the means and the variance term on both programs apply one and the same function.  The
  frames of the two kernel programs are the generated ones, the reference's is its generated run with the result
  dropped, and the idealization rewrote nothing.
-/
import proofs.«424489_j35948876268437_3_alg».proof.Defs
import proofs.«424489_j35948876268437_3_alg».proof.Proof.Gen.Kernel
import proofs.«424489_j35948876268437_3_alg».proof.Proof.Gen.Kernel.Frame
import proofs.«424489_j35948876268437_3_alg».proof.Proof.Gen.KernelIdeal
import proofs.«424489_j35948876268437_3_alg».proof.Proof.Gen.KernelIdeal.Frame
import proofs.«424489_j35948876268437_3_alg».proof.Proof.Gen.ReferenceIdeal
import proofs.«424489_j35948876268437_3_alg».proof.Proof.Gen.ReferenceIdeal.Run
import proofs.«424489_j35948876268437_3_alg».proof.Proof.Gen.ReferenceIdeal.Read
import proofs.«424489_j35948876268437_3_alg».proof.Proof.Gen.Pre_finite_inputs
import proofs.«424489_j35948876268437_3_alg».proof.Proof.KRun
import proofs.«424489_j35948876268437_3_alg».proof.Proof.KValue
import proofs.«424489_j35948876268437_3_alg».proof.Proof.RefValue
import proofs.«424489_j35948876268437_3_alg».proof.Proof.Finite
import Idealize.ShloMosaic.Adequacy
import Idealize.ShloMosaic.Init

noncomputable section

namespace Cert.Proof

open Idealize.ShloMosaic Idealize.SL.Sem

/-- Both idealized programs run, and end with the same number: each result is the shared tail of the cluster means and
    the variance term of the points and labels, which agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W13 m ρ c (Proc.devRef .tc Cert.KernelIdeal.main_v47),
    Cert.KernelIdeal.ValueRun.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v68_eq, (hagree c).1, (hagree c).2, Cert.ReferenceIdeal.RefValue.ref_value]
  exact (Cert.KernelIdeal.KValue.kernel_value m ρ c (Cert.Finite.real_of_pre _ _ (hpre c))).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
